-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x1024 : Shape := ⟨2, ![6, 1024]⟩
abbrev S65536x1024 : Shape := ⟨2, ![65536, 1024]⟩
abbrev S4x1024x128x128 : Shape := ⟨4, ![4, 1024, 128, 128]⟩
abbrev S4x6x128x128 : Shape := ⟨4, ![4, 6, 128, 128]⟩
abbrev S65536 : Shape := ⟨1, ![65536]⟩
abbrev S_ : Shape := ⟨0, ![]⟩

class Facts : Prop where
  bcast_S_S6x1024 : S_.BroadcastsInDim S6x1024 (![] : Fin 0 → Fin S6x1024.rank)
  reducesTo_S6x1024_S_d0_1 : S6x1024.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S4x1024x128x128 : S_.BroadcastsInDim S4x1024x128x128 (![] : Fin 0 → Fin S4x1024x128x128.rank)
  reducesTo_S4x1024x128x128_S_d0_1_2_3 : S4x1024x128x128.ReducesTo [0, 1, 2, 3] S_
  bcast_S_S4x6x128x128 : S_.BroadcastsInDim S4x6x128x128 (![] : Fin 0 → Fin S4x6x128x128.rank)
  reducesTo_S4x6x128x128_S_d0_1_2_3 : S4x6x128x128.ReducesTo [0, 1, 2, 3] S_

variable [Facts]

def fn_part1 {F : FTy → Type} [FloatOps F] (main_v13 : IVec S_ 1) (main_v16 : IVec S4x6x128x128 1) : IVec S_ 1 :=
  let main_c_5 : IVec S_ 1 := constantI S_ 1 1#1
  let main_v17 : IVec S_ 1 := (fun x v => Host.reduce IntOp.andi x v reducesTo_S4x6x128x128_S_d0_1_2_3 h_S_) main_v16 main_c_5
  let main_v18 : IVec S_ 1 := andi main_v13 main_v17
  main_v18

def fn {F : FTy → Type} [FloatOps F] (main_arg0 : FVec F S6x1024 .f32) (main_arg1 : FVec F S65536x1024 .f32) (main_arg2 : FVec F S4x1024x128x128 .f32) (main_arg3 : FVec F S4x6x128x128 .f32) (main_arg4 : IVec S65536 32) : IVec S_ 1 :=
  let main_v0 : FVec F S6x1024 .f32 := Host.absf main_arg0
  let main_cst : FVec F S_ .f32 := constant S_ .f32 0x7F800000#32
  let main_v1 : FVec F S6x1024 .f32 := broadcastInDim S6x1024 ![] bcast_S_S6x1024 main_cst
  let main_v2 : IVec S6x1024 1 := cmpf .olt main_v0 main_v1
  let main_c : IVec S_ 1 := constantI S_ 1 1#1
  let main_v3 : IVec S_ 1 := (fun x v => Host.reduce IntOp.andi x v reducesTo_S6x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S4x1024x128x128 .f32 := Host.absf main_arg2
  let main_cst_2 : FVec F S_ .f32 := constant S_ .f32 0x7F800000#32
  let main_v10 : FVec F S4x1024x128x128 .f32 := broadcastInDim S4x1024x128x128 ![] bcast_S_S4x1024x128x128 main_cst_2
  let main_v11 : IVec S4x1024x128x128 1 := cmpf .olt main_v9 main_v10
  let main_c_3 : IVec S_ 1 := constantI S_ 1 1#1
  let main_v12 : IVec S_ 1 := (fun x v => Host.reduce IntOp.andi x v reducesTo_S4x1024x128x128_S_d0_1_2_3 h_S_) main_v11 main_c_3
  let main_v13 : IVec S_ 1 := andi main_v8 main_v12
  let main_v14 : FVec F S4x6x128x128 .f32 := Host.absf main_arg3
  let main_cst_4 : FVec F S_ .f32 := constant S_ .f32 0x7F800000#32
  let main_v15 : FVec F S4x6x128x128 .f32 := broadcastInDim S4x6x128x128 ![] bcast_S_S4x6x128x128 main_cst_4
  let main_v16 : IVec S4x6x128x128 1 := cmpf .olt main_v14 main_v15
  fn_part1 (F := F) main_v13 main_v16
-- ==== Kernel.lean ====
abbrev S6x1024 : Shape := ⟨2, ![6, 1024]⟩
abbrev S65536x1024 : Shape := ⟨2, ![65536, 1024]⟩
abbrev S4x1024x128x128 : Shape := ⟨4, ![4, 1024, 128, 128]⟩
abbrev S4x6x128x128 : Shape := ⟨4, ![4, 6, 128, 128]⟩
abbrev S65536 : Shape := ⟨1, ![65536]⟩
abbrev S_ : Shape := ⟨0, ![]⟩
abbrev S6 : Shape := ⟨1, ![6]⟩
abbrev S6x1 : Shape := ⟨2, ![6, 1]⟩
abbrev S1x65536 : Shape := ⟨2, ![1, 65536]⟩
abbrev S6x65536 : Shape := ⟨2, ![6, 65536]⟩
abbrev S2x6x1024 : Shape := ⟨3, ![2, 6, 1024]⟩
abbrev S1x2048 : Shape := ⟨2, ![1, 2048]⟩
abbrev S2048x1024 : Shape := ⟨2, ![2048, 1024]⟩
abbrev S1x6x1024 : Shape := ⟨3, ![1, 6, 1024]⟩
abbrev S6x2048 : Shape := ⟨2, ![6, 2048]⟩
abbrev S4x1024x16384 : Shape := ⟨3, ![4, 1024, 16384]⟩
abbrev S4x6x16384 : Shape := ⟨3, ![4, 6, 16384]⟩
abbrev S1x1024x2048 : Shape := ⟨3, ![1, 1024, 2048]⟩
abbrev S1x6x2048 : Shape := ⟨3, ![1, 6, 2048]⟩
abbrev S1024x2048 : Shape := ⟨2, ![1024, 2048]⟩
abbrev S2048 : Shape := ⟨1, ![2048]⟩
abbrev S4x128x128 : Shape := ⟨3, ![4, 128, 128]⟩
abbrev S4x1x128x128 : Shape := ⟨4, ![4, 1, 128, 128]⟩
abbrev S6x4x128x128 : Shape := ⟨4, ![6, 4, 128, 128]⟩

abbrev nBuf : Space → Nat
  | .hbm => 96
  | .vmem => 11
  | .smem => 0
  | _ => 0

abbrev bufTy : (tb : Table) → Fin (tcTables nBuf tb) → BufTy
  | .hbm, ⟨0, _⟩ => ⟨S6x1024, .f32⟩
  | .hbm, ⟨1, _⟩ => ⟨S65536x1024, .f32⟩
  | .hbm, ⟨2, _⟩ => ⟨S4x1024x128x128, .f32⟩
  | .hbm, ⟨3, _⟩ => ⟨S4x6x128x128, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S6, .i32⟩
  | .hbm, ⟨9, _⟩ => ⟨S6x1, .i32⟩
  | .hbm, ⟨10, _⟩ => ⟨S1x65536, .i32⟩
  | .hbm, ⟨11, _⟩ => ⟨S6x65536, .i32⟩
  | .hbm, ⟨12, _⟩ => ⟨S6x65536, .i32⟩
  | .hbm, ⟨13, _⟩ => ⟨S6x65536, .i1⟩
  | .hbm, ⟨14, _⟩ => ⟨S1x65536, .i1⟩
  | .hbm, ⟨15, _⟩ => ⟨S6x65536, .i1⟩
  | .hbm, ⟨16, _⟩ => ⟨S6x65536, .i1⟩
  | .hbm, ⟨17, _⟩ => ⟨S6x65536, .f32⟩
  | .hbm, ⟨18, _⟩ => ⟨S_, .f32⟩
  | .hbm, ⟨19, _⟩ => ⟨S6, .f32⟩
  | .hbm, ⟨20, _⟩ => ⟨S1x65536, .i32⟩
  | .hbm, ⟨21, _⟩ => ⟨S2x6x1024, .f32⟩
  | .hbm, ⟨22, _⟩ => ⟨S1x6x1024, .f32⟩
  | .hbm, ⟨23, _⟩ => ⟨S6x1024, .f32⟩
  | .hbm, ⟨24, _⟩ => ⟨S1x6x1024, .f32⟩
  | .hbm, ⟨25, _⟩ => ⟨S6x1024, .f32⟩
  | .hbm, ⟨26, _⟩ => ⟨S6x1024, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S6x1, .f32⟩
  | .hbm, ⟨31, _⟩ => ⟨S6x1024, .f32⟩
  | .hbm, ⟨32, _⟩ => ⟨S6x1024, .f32⟩
  | .hbm, ⟨33, _⟩ => ⟨S6x1024, .f32⟩
  | .hbm, ⟨34, _⟩ => ⟨S_, .f32⟩
  | .hbm, ⟨35, _⟩ => ⟨S6, .f32⟩
  | .hbm, ⟨36, _⟩ => ⟨S6x1, .f32⟩
  | .hbm, ⟨37, _⟩ => ⟨S6x1, .f32⟩
  | .hbm, ⟨38, _⟩ => ⟨S_, .f32⟩
  | .hbm, ⟨39, _⟩ => ⟨S6x1, .f32⟩
  | .hbm, ⟨40, _⟩ => ⟨S6x1, .f32⟩
  | .hbm, ⟨41, _⟩ => ⟨S6x1024, .f32⟩
  | .hbm, ⟨42, _⟩ => ⟨S6x1024, .f32⟩
  | .hbm, ⟨43, _⟩ => ⟨S4x1024x16384, .f32⟩
  | .hbm, ⟨44, _⟩ => ⟨S4x6x16384, .f32⟩
  | .hbm, ⟨45, _⟩ => ⟨S4x6x128x128, .f32⟩
  | .hbm, ⟨46, _⟩ => ⟨S_, .f32⟩
  | .hbm, ⟨47, _⟩ => ⟨S4x128x128, .f32⟩
  | .hbm, ⟨48, _⟩ => ⟨S_, .f32⟩
  | .hbm, ⟨49, _⟩ => ⟨S4x128x128, .f32⟩
  | .hbm, ⟨50, _⟩ => ⟨S4x128x128, .f32⟩
  | .hbm, ⟨51, _⟩ => ⟨S4x1x128x128, .f32⟩
  | .hbm, ⟨52, _⟩ => ⟨S4x6x128x128, .f32⟩
  | .hbm, ⟨53, _⟩ => ⟨S4x6x128x128, .f32⟩
  | .hbm, ⟨54, _⟩ => ⟨S4x6x128x128, .f32⟩
  | .hbm, ⟨55, _⟩ => ⟨S_, .f32⟩
  | .hbm, ⟨56, _⟩ => ⟨S4x128x128, .f32⟩
  | .hbm, ⟨57, _⟩ => ⟨S4x1x128x128, .f32⟩
  | .hbm, ⟨58, _⟩ => ⟨S4x6x128x128, .f32⟩
  | .hbm, ⟨59, _⟩ => ⟨S4x6x128x128, .f32⟩
  | .hbm, ⟨60, _⟩ => ⟨S_, .f32⟩
  | .hbm, ⟨61, _⟩ => ⟨S4x6x128x128, .f32⟩
  | .hbm, ⟨62, _⟩ => ⟨S4x6x128x128, .f32⟩
  | .hbm, ⟨63, _⟩ => ⟨S4x6x128x128, .f32⟩
  | .hbm, ⟨64, _⟩ => ⟨S_, .f32⟩
  | .hbm, ⟨65, _⟩ => ⟨S4x128x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S6x4x128x128, .f32⟩
  | .hbm, ⟨71, _⟩ => ⟨S6x65536, .f32⟩
  | .hbm, ⟨72, _⟩ => ⟨S_, .f32⟩
  | .hbm, ⟨73, _⟩ => ⟨S6, .f32⟩
  | .hbm, ⟨74, _⟩ => ⟨S_, .f32⟩
  | .hbm, ⟨75, _⟩ => ⟨S6, .f32⟩
  | .hbm, ⟨76, _⟩ => ⟨S6, .f32⟩
  | .hbm, ⟨77, _⟩ => ⟨S6x1, .f32⟩
  | .hbm, ⟨78, _⟩ => ⟨S6x65536, .f32⟩
  | .hbm, ⟨79, _⟩ => ⟨S6x65536, .f32⟩
  | .hbm, ⟨80, _⟩ => ⟨S6x65536, .f32⟩
  | .hbm, ⟨81, _⟩ => ⟨S_, .f32⟩
  | .hbm, ⟨82, _⟩ => ⟨S6, .f32⟩
  | .hbm, ⟨83, _⟩ => ⟨S6x1, .f32⟩
  | .hbm, ⟨84, _⟩ => ⟨S6x65536, .f32⟩
  | .hbm, ⟨85, _⟩ => ⟨S6x65536, .f32⟩
  | .hbm, ⟨86, _⟩ => ⟨S6x4x128x128, .f32⟩
  | .hbm, ⟨87, _⟩ => ⟨S6x65536, .f32⟩
  | .hbm, ⟨88, _⟩ => ⟨S6x65536, .f32⟩
  | .hbm, ⟨89, _⟩ => ⟨S_, .f32⟩
  | .hbm, ⟨90, _⟩ => ⟨S6, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S1x2048, .i32⟩
  | .local _ .vmem, ⟨1, _⟩ => ⟨S1x2048, .i32⟩
  | .local _ .vmem, ⟨2, _⟩ => ⟨S2048x1024, .f32⟩
  | .local _ .vmem, ⟨3, _⟩ => ⟨S2048x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024x2048, .f32⟩
  | .local _ .vmem, ⟨7, _⟩ => ⟨S1x1024x2048, .f32⟩
  | .local _ .vmem, ⟨8, _⟩ => ⟨S6x1024, .f32⟩
  | .local _ .vmem, ⟨9, _⟩ => ⟨S1x6x2048, .f32⟩
  | .local _ .vmem, ⟨10, _⟩ => ⟨S1x6x2048, .f32⟩
  | _, _ => ⟨S6x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x6x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S65536 : S_.BroadcastsInDim S65536 (![] : Fin 0 → Fin S65536.rank)
  bcast_S6_S6x1_0 : S6.BroadcastsInDim S6x1 (![0] : Fin 1 → Fin S6x1.rank)
  bcast_S65536_S1x65536_1 : S65536.BroadcastsInDim S1x65536 (![1] : Fin 1 → Fin S1x65536.rank)
  bcast_S6x1_S6x65536_0_1 : S6x1.BroadcastsInDim S6x65536 (![0, 1] : Fin 2 → Fin S6x65536.rank)
  bcast_S1x65536_S6x65536_0_1 : S1x65536.BroadcastsInDim S6x65536 (![0, 1] : Fin 2 → Fin S6x65536.rank)
  reducesTo_S6x65536_S6_d1 : S6x65536.ReducesTo [1] S6
  h_S_ : 0 < S_.numel
  shapeCasts_S65536_S1x65536 : S65536.ShapeCasts S1x65536
  inb_S1x6x1024_S1x6x1024_0_0_0 : ∀ a, (![0, 0, 0] : Fin 3 → Nat) a + S1x6x1024.size a ≤ S1x6x1024.size a
  h_S1x6x1024 : 0 < S1x6x1024.numel
  shapeCasts_S1x6x1024_S6x1024 : S1x6x1024.ShapeCasts S6x1024
  shapeCasts_S6x1024_S1x6x1024 : S6x1024.ShapeCasts S1x6x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S6x2048_d0_w32 : S6x2048.Iotas .tc 32 [0]
  broadcasts_S1x2048_S6x2048 : S1x2048.Broadcasts S6x2048
  natLt_1_32 : 1 < 32
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  slices_S2x6x1024_S1x6x1024_0_0_0 : S2x6x1024.Slices ![0, 0, 0] S1x6x1024
  slices_S2x6x1024_S1x6x1024_1_0_0 : S2x6x1024.Slices ![1, 0, 0] S1x6x1024
  bcast_S_S6 : S_.BroadcastsInDim S6 (![] : Fin 0 → Fin S6.rank)
  bcast_S6x1_S6x1024_0_1 : S6x1.BroadcastsInDim S6x1024 (![0, 1] : Fin 2 → Fin S6x1024.rank)
  reducesTo_S6x1024_S6_d1 : S6x1024.ReducesTo [1] S6
  bcast_S_S6x1 : S_.BroadcastsInDim S6x1 (![] : Fin 0 → Fin S6x1.rank)
  shapeCasts_S4x1024x128x128_S4x1024x16384 : S4x1024x128x128.ShapeCasts S4x1024x16384
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S2048 : S1024x2048.Reduces [0] S2048
  shapeCasts_S2048_S1x2048 : S2048.ShapeCasts S1x2048
  broadcasts_S1x2048_S1024x2048 : S1x2048.Broadcasts S1024x2048
  inb_S6x1024_S6x1024_0_0 : ∀ a, (![0, 0] : Fin 2 → Nat) a + S6x1024.size a ≤ S6x1024.size a
  h_S6x1024 : 0 < S6x1024.numel
  shapeCasts_S6x1024_S6x1024 : S6x1024.ShapeCasts S6x1024
  inb_S1x6x2048_S1x6x2048_0_0_0 : ∀ a, (![0, 0, 0] : Fin 3 → Nat) a + S1x6x2048.size a ≤ S1x6x2048.size a
  h_S1x6x2048 : 0 < S1x6x2048.numel
  shapeCasts_S1x6x2048_S6x2048 : S1x6x2048.ShapeCasts S6x2048
  shapeCasts_S6x2048_S1x6x2048 : S6x2048.ShapeCasts S1x6x2048
  shapeCasts_S4x6x16384_S4x6x128x128 : S4x6x16384.ShapeCasts S4x6x128x128
  reducesTo_S4x6x128x128_S4x128x128_d1 : S4x6x128x128.ReducesTo [1] S4x128x128
  bcast_S_S4x128x128 : S_.BroadcastsInDim S4x128x128 (![] : Fin 0 → Fin S4x128x128.rank)
  bcast_S4x128x128_S4x1x128x128_0_2_3 : S4x128x128.BroadcastsInDim S4x1x128x128 (![0, 2, 3] : Fin 3 → Fin S4x1x128x128.rank)
  bcast_S4x1x128x128_S4x6x128x128_0_1_2_3 : S4x1x128x128.BroadcastsInDim S4x6x128x128 (![0, 1, 2, 3] : Fin 4 → Fin S4x6x128x128.rank)
  bcast_S_S4x6x128x128 : S_.BroadcastsInDim S4x6x128x128 (![] : Fin 0 → Fin S4x6x128x128.rank)
  reducesTo_S4x128x128_S_d0_1_2 : S4x128x128.ReducesTo [0, 1, 2] S_
  transposes_S4x6x128x128_S6x4x128x128_1_0_2_3 : S4x6x128x128.Transposes [1, 0, 2, 3] S6x4x128x128
  shapeCasts_S6x4x128x128_S6x65536 : S6x4x128x128.ShapeCasts S6x65536
  reducesTo_S6_S_d0 : S6.ReducesTo [0] S_
  dot_S6x2048_S2048x1024_S6x1024_1_0_0_1_n_n_wf : DotDims.WF S6x2048 S2048x1024 S6x1024 [1] [0] [0] [1] [] []
  dot_S6x1024_S1024x2048_S6x2048_1_0_0_1_n_n_wf : DotDims.WF S6x1024 S1024x2048 S6x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x65536.size a
  hwx0_0 : ∀ i : grid0.Coords, EltTy.bits .i32 = 32 ∨ (Rect.block (s := S1x65536) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6x1024.size a ≤ S2x6x1024.size a
  hwx0_2 : ∀ i : grid0.Coords, EltTy.bits .f32 = 32 ∨ (Rect.block (s := S2x6x1024) S1x6x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x1024x16384.size a
  hwx1_0 : ∀ i : grid1.Coords, EltTy.bits .f32 = 32 ∨ (Rect.block (s := S4x1024x16384) S1x1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x1024.size a ≤ S6x1024.size a
  hwx1_1 : ∀ i : grid1.Coords, EltTy.bits .f32 = 32 ∨ (Rect.block (s := S6x1024) S6x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6x2048.size a ≤ S4x6x16384.size a
  hwx1_2 : ∀ i : grid1.Coords, EltTy.bits .f32 = 32 ∨ (Rect.block (s := S4x6x16384) S1x6x2048.size (cc1_transform_2 i) (hinb1_2 i)).WholeWords (EltTy.packing .f32)

variable [Facts₀]

def dot_S6x2048_S2048x1024_S6x1024_1_0_0_1_n_n : DotDims S6x2048 S2048x1024 S6x1024 where
  lhsContracting := [1]
  rhsContracting := [0]
  lhsNonContracting := [0]
  rhsNonContracting := [1]
  lhsBatch := []
  rhsBatch := []
  wf := dot_S6x2048_S2048x1024_S6x1024_1_0_0_1_n_n_wf
def dot_S6x1024_S1024x2048_S6x2048_1_0_0_1_n_n : DotDims S6x1024 S1024x2048 S6x2048 where
  lhsContracting := [1]
  rhsContracting := [0]
  lhsNonContracting := [0]
  rhsNonContracting := [1]
  lhsBatch := []
  rhsBatch := []
  wf := dot_S6x1024_S1024x2048_S6x2048_1_0_0_1_n_n_wf

abbrev win0_0 : Pipeline.Window sig grid0 :=
  Pipeline.Window.ofSpec (Memref.whole main_v13) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x6x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S6x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x6x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S6x1024 : Shape := ⟨2, ![6, 1024]⟩
abbrev S65536x1024 : Shape := ⟨2, ![65536, 1024]⟩
abbrev S4x1024x128x128 : Shape := ⟨4, ![4, 1024, 128, 128]⟩
abbrev S4x6x128x128 : Shape := ⟨4, ![4, 6, 128, 128]⟩
abbrev S65536 : Shape := ⟨1, ![65536]⟩
abbrev S_ : Shape := ⟨0, ![]⟩
abbrev S65536x1 : Shape := ⟨2, ![65536, 1]⟩
abbrev S7x1024 : Shape := ⟨2, ![7, 1024]⟩
abbrev S7 : Shape := ⟨1, ![7]⟩
abbrev S6 : Shape := ⟨1, ![6]⟩
abbrev S6x1 : Shape := ⟨2, ![6, 1]⟩
abbrev S4x128x128 : Shape := ⟨3, ![4, 128, 128]⟩
abbrev S4x1x128x128 : Shape := ⟨4, ![4, 1, 128, 128]⟩
abbrev S4x128x128x1024 : Shape := ⟨4, ![4, 128, 128, 1024]⟩
abbrev S1024x6 : Shape := ⟨2, ![1024, 6]⟩
abbrev S65536x6 : Shape := ⟨2, ![65536, 6]⟩
abbrev S4x128x128x6 : Shape := ⟨4, ![4, 128, 128, 6]⟩
abbrev S6x4x128x128 : Shape := ⟨4, ![6, 4, 128, 128]⟩
abbrev S6x65536 : Shape := ⟨2, ![6, 65536]⟩

abbrev nBuf : Space → Nat
  | .hbm => 109
  | .vmem => 0
  | .smem => 0
  | _ => 0

abbrev bufTy : (tb : Table) → Fin (tcTables nBuf tb) → BufTy
  | .hbm, ⟨0, _⟩ => ⟨S6x1024, .f32⟩
  | .hbm, ⟨1, _⟩ => ⟨S65536x1024, .f32⟩
  | .hbm, ⟨2, _⟩ => ⟨S4x1024x128x128, .f32⟩
  | .hbm, ⟨3, _⟩ => ⟨S4x6x128x128, .f32⟩
  | .hbm, ⟨4, _⟩ => ⟨S65536, .i32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S65536x1, .i1⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S_, .i32⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S_, .f32⟩
  | .hbm, ⟨17, _⟩ => ⟨S7x1024, .f32⟩
  | .hbm, ⟨18, _⟩ => ⟨S65536x1, .i32⟩
  | .hbm, ⟨19, _⟩ => ⟨S7x1024, .f32⟩
  | .hbm, ⟨20, _⟩ => ⟨S6x1024, .f32⟩
  | .hbm, ⟨21, _⟩ => ⟨S65536, .f32⟩
  | .hbm, ⟨22, _⟩ => ⟨S_, .f32⟩
  | .hbm, ⟨23, _⟩ => ⟨S7, .f32⟩
  | .hbm, ⟨24, _⟩ => ⟨S65536x1, .i32⟩
  | .hbm, ⟨25, _⟩ => ⟨S7, .f32⟩
  | .hbm, ⟨26, _⟩ => ⟨S6, .f32⟩
  | .hbm, ⟨27, _⟩ => ⟨S_, .f32⟩
  | .hbm, ⟨28, _⟩ => ⟨S6, .f32⟩
  | .hbm, ⟨29, _⟩ => ⟨S6, .f32⟩
  | .hbm, ⟨30, _⟩ => ⟨S6x1, .f32⟩
  | .hbm, ⟨31, _⟩ => ⟨S6x1024, .f32⟩
  | .hbm, ⟨32, _⟩ => ⟨S6x1024, .f32⟩
  | .hbm, ⟨33, _⟩ => ⟨S4x1024x128x128, .f32⟩
  | .hbm, ⟨34, _⟩ => ⟨S_, .f32⟩
  | .hbm, ⟨35, _⟩ => ⟨S4x128x128, .f32⟩
  | .hbm, ⟨36, _⟩ => ⟨S4x1x128x128, .f32⟩
  | .hbm, ⟨37, _⟩ => ⟨S4x1x128x128, .f32⟩
  | .hbm, ⟨38, _⟩ => ⟨S_, .f32⟩
  | .hbm, ⟨39, _⟩ => ⟨S4x1x128x128, .f32⟩
  | .hbm, ⟨40, _⟩ => ⟨S4x1x128x128, .f32⟩
  | .hbm, ⟨41, _⟩ => ⟨S4x1024x128x128, .f32⟩
  | .hbm, ⟨42, _⟩ => ⟨S4x1024x128x128, .f32⟩
  | .hbm, ⟨43, _⟩ => ⟨S4x128x128x1024, .f32⟩
  | .hbm, ⟨44, _⟩ => ⟨S65536x1024, .f32⟩
  | .hbm, ⟨45, _⟩ => ⟨S6x1024, .f32⟩
  | .hbm, ⟨46, _⟩ => ⟨S_, .f32⟩
  | .hbm, ⟨47, _⟩ => ⟨S6, .f32⟩
  | .hbm, ⟨48, _⟩ => ⟨S6x1, .f32⟩
  | .hbm, ⟨49, _⟩ => ⟨S6x1, .f32⟩
  | .hbm, ⟨50, _⟩ => ⟨S_, .f32⟩
  | .hbm, ⟨51, _⟩ => ⟨S6x1, .f32⟩
  | .hbm, ⟨52, _⟩ => ⟨S6x1, .f32⟩
  | .hbm, ⟨53, _⟩ => ⟨S6x1024, .f32⟩
  | .hbm, ⟨54, _⟩ => ⟨S6x1024, .f32⟩
  | .hbm, ⟨55, _⟩ => ⟨S1024x6, .f32⟩
  | .hbm, ⟨56, _⟩ => ⟨S65536x6, .f32⟩
  | .hbm, ⟨57, _⟩ => ⟨S4x128x128x6, .f32⟩
  | .hbm, ⟨58, _⟩ => ⟨S4x6x128x128, .f32⟩
  | .hbm, ⟨59, _⟩ => ⟨S_, .f32⟩
  | .hbm, ⟨60, _⟩ => ⟨S4x128x128, .f32⟩
  | .hbm, ⟨61, _⟩ => ⟨S_, .f32⟩
  | .hbm, ⟨62, _⟩ => ⟨S4x128x128, .f32⟩
  | .hbm, ⟨63, _⟩ => ⟨S4x128x128, .f32⟩
  | .hbm, ⟨64, _⟩ => ⟨S4x1x128x128, .f32⟩
  | .hbm, ⟨65, _⟩ => ⟨S4x6x128x128, .f32⟩
  | .hbm, ⟨66, _⟩ => ⟨S4x6x128x128, .f32⟩
  | .hbm, ⟨67, _⟩ => ⟨S4x6x128x128, .f32⟩
  | .hbm, ⟨68, _⟩ => ⟨S_, .f32⟩
  | .hbm, ⟨69, _⟩ => ⟨S4x128x128, .f32⟩
  | .hbm, ⟨70, _⟩ => ⟨S4x1x128x128, .f32⟩
  | .hbm, ⟨71, _⟩ => ⟨S4x6x128x128, .f32⟩
  | .hbm, ⟨72, _⟩ => ⟨S4x6x128x128, .f32⟩
  | .hbm, ⟨73, _⟩ => ⟨S_, .f32⟩
  | .hbm, ⟨74, _⟩ => ⟨S4x6x128x128, .f32⟩
  | .hbm, ⟨75, _⟩ => ⟨S4x6x128x128, .f32⟩
  | .hbm, ⟨76, _⟩ => ⟨S4x6x128x128, .f32⟩
  | .hbm, ⟨77, _⟩ => ⟨S_, .f32⟩
  | .hbm, ⟨78, _⟩ => ⟨S4x128x128, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S6x4x128x128, .f32⟩
  | .hbm, ⟨84, _⟩ => ⟨S6x65536, .f32⟩
  | .hbm, ⟨85, _⟩ => ⟨S_, .f32⟩
  | .hbm, ⟨86, _⟩ => ⟨S6, .f32⟩
  | .hbm, ⟨87, _⟩ => ⟨S_, .f32⟩
  | .hbm, ⟨88, _⟩ => ⟨S6, .f32⟩
  | .hbm, ⟨89, _⟩ => ⟨S6, .f32⟩
  | .hbm, ⟨90, _⟩ => ⟨S6x1, .f32⟩
  | .hbm, ⟨91, _⟩ => ⟨S6x65536, .f32⟩
  | .hbm, ⟨92, _⟩ => ⟨S6x65536, .f32⟩
  | .hbm, ⟨93, _⟩ => ⟨S6x65536, .f32⟩
  | .hbm, ⟨94, _⟩ => ⟨S_, .f32⟩
  | .hbm, ⟨95, _⟩ => ⟨S6, .f32⟩
  | .hbm, ⟨96, _⟩ => ⟨S6x1, .f32⟩
  | .hbm, ⟨97, _⟩ => ⟨S6x65536, .f32⟩
  | .hbm, ⟨98, _⟩ => ⟨S6x65536, .f32⟩
  | .hbm, ⟨99, _⟩ => ⟨S6x4x128x128, .f32⟩
  | .hbm, ⟨100, _⟩ => ⟨S6x65536, .f32⟩
  | .hbm, ⟨101, _⟩ => ⟨S6x65536, .f32⟩
  | .hbm, ⟨102, _⟩ => ⟨S_, .f32⟩
  | .hbm, ⟨103, _⟩ => ⟨S6, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S6x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1024_0_1 : S65536x1.BroadcastsInDim S65536x1024 (![0, 1] : Fin 2 → Fin S65536x1024.rank)
  bcast_S_S7x1024 : S_.BroadcastsInDim S7x1024 (![] : Fin 0 → Fin S7x1024.rank)
  slices_S7x1024_S6x1024_0_0 : S7x1024.Slices ![0, 0] S6x1024
  bcast_S_S7 : S_.BroadcastsInDim S7 (![] : Fin 0 → Fin S7.rank)
  slices_S7_S6_0 : S7.Slices ![0] S6
  bcast_S_S6 : S_.BroadcastsInDim S6 (![] : Fin 0 → Fin S6.rank)
  bcast_S6_S6x1_0 : S6.BroadcastsInDim S6x1 (![0] : Fin 1 → Fin S6x1.rank)
  bcast_S6x1_S6x1024_0_1 : S6x1.BroadcastsInDim S6x1024 (![0, 1] : Fin 2 → Fin S6x1024.rank)
  reducesTo_S4x1024x128x128_S4x128x128_d1 : S4x1024x128x128.ReducesTo [1] S4x128x128
  h_S_ : 0 < S_.numel
  bcast_S4x128x128_S4x1x128x128_0_2_3 : S4x128x128.BroadcastsInDim S4x1x128x128 (![0, 2, 3] : Fin 3 → Fin S4x1x128x128.rank)
  bcast_S_S4x1x128x128 : S_.BroadcastsInDim S4x1x128x128 (![] : Fin 0 → Fin S4x1x128x128.rank)
  bcast_S4x1x128x128_S4x1024x128x128_0_1_2_3 : S4x1x128x128.BroadcastsInDim S4x1024x128x128 (![0, 1, 2, 3] : Fin 4 → Fin S4x1024x128x128.rank)
  transposes_S4x1024x128x128_S4x128x128x1024_0_2_3_1 : S4x1024x128x128.Transposes [0, 2, 3, 1] S4x128x128x1024
  shapeCasts_S4x128x128x1024_S65536x1024 : S4x128x128x1024.ShapeCasts S65536x1024
  reducesTo_S6x1024_S6_d1 : S6x1024.ReducesTo [1] S6
  bcast_S_S6x1 : S_.BroadcastsInDim S6x1 (![] : Fin 0 → Fin S6x1.rank)
  transposes_S6x1024_S1024x6_1_0 : S6x1024.Transposes [1, 0] S1024x6
  shapeCasts_S65536x6_S4x128x128x6 : S65536x6.ShapeCasts S4x128x128x6
  transposes_S4x128x128x6_S4x6x128x128_0_3_1_2 : S4x128x128x6.Transposes [0, 3, 1, 2] S4x6x128x128
  reducesTo_S4x6x128x128_S4x128x128_d1 : S4x6x128x128.ReducesTo [1] S4x128x128
  bcast_S_S4x128x128 : S_.BroadcastsInDim S4x128x128 (![] : Fin 0 → Fin S4x128x128.rank)
  bcast_S4x1x128x128_S4x6x128x128_0_1_2_3 : S4x1x128x128.BroadcastsInDim S4x6x128x128 (![0, 1, 2, 3] : Fin 4 → Fin S4x6x128x128.rank)
  bcast_S_S4x6x128x128 : S_.BroadcastsInDim S4x6x128x128 (![] : Fin 0 → Fin S4x6x128x128.rank)
  reducesTo_S4x128x128_S_d0_1_2 : S4x128x128.ReducesTo [0, 1, 2] S_
  transposes_S4x6x128x128_S6x4x128x128_1_0_2_3 : S4x6x128x128.Transposes [1, 0, 2, 3] S6x4x128x128
  shapeCasts_S6x4x128x128_S6x65536 : S6x4x128x128.ShapeCasts S6x65536
  reducesTo_S6x65536_S6_d1 : S6x65536.ReducesTo [1] S6
  bcast_S6x1_S6x65536_0_1 : S6x1.BroadcastsInDim S6x65536 (![0, 1] : Fin 2 → Fin S6x65536.rank)
  reducesTo_S6_S_d0 : S6.ReducesTo [0] S_
  scatter_S7x1024_S65536x1_S65536x1024_1_0_0_1_wf : ScatterDims.WF S7x1024 S65536x1 S65536x1024 [1] [0] [0] 1
  scatter_S7_S65536x1_S65536_n_0_0_1_wf : ScatterDims.WF S7 S65536x1 S65536 [] [0] [0] 1
  dot_S65536x1024_S1024x6_S65536x6_1_0_0_1_n_n_wf : DotDims.WF S65536x1024 S1024x6 S65536x6 [1] [0] [0] [1] [] []

variable [Facts₀]

def scatter_S7x1024_S65536x1_S65536x1024_1_0_0_1 : ScatterDims S7x1024 S65536x1 S65536x1024 where
  updateWindowDims := [1]
  insertedWindowDims := [0]
  scatterDimsToOperandDims := [0]
  indexVectorDim := 1
  wf := scatter_S7x1024_S65536x1_S65536x1024_1_0_0_1_wf
def scatter_S7_S65536x1_S65536_n_0_0_1 : ScatterDims S7 S65536x1 S65536 where
  updateWindowDims := []
  insertedWindowDims := [0]
  scatterDimsToOperandDims := [0]
  indexVectorDim := 1
  wf := scatter_S7_S65536x1_S65536_n_0_0_1_wf
def dot_S65536x1024_S1024x6_S65536x6_1_0_0_1_n_n : DotDims S65536x1024 S1024x6 S65536x6 where
  lhsContracting := [1]
  rhsContracting := [0]
  lhsNonContracting := [0]
  rhsNonContracting := [1]
  lhsBatch := []
  rhsBatch := []
  wf := dot_S65536x1024_S1024x6_S65536x6_1_0_0_1_n_n_wf

class Facts : Prop extends Facts₀ where

variable [Facts]
-- ==== Proof.HostFns.lean ====
import proofs.«421650_j64458869178422_3_alg».proof.KernelIdeal

noncomputable section

namespace Cert.KernelIdeal.HostFns

open Cert.KernelIdeal Idealize.ShloMosaic Idealize.SL.Sem
open Cert.KernelIdeal.Facts₀ Cert.KernelIdeal.Facts

variable {F : FTy → Type} [FloatOps F] [Cert.KernelIdeal.Facts]

/-- The number of rows of each class: the indicator of (label = class, and the label is not the ignored one), summed over the rows. -/
def classCount (lab : IVec S65536 32) : FVec F S6 .f32 :=
  have c : IVec S_ 32 := constantI S_ 32 255#32
  have v0 : IVec S65536 32 := broadcastInDim S65536 ![] bcast_S_S65536 c
  have v1 : IVec S65536 1 := cmpi .ne lab v0
  have v2 : IVec S6 32 := iotaInDim S6 32 0
  have v3 : IVec S6x1 32 := broadcastInDim S6x1 ![0] bcast_S6_S6x1_0 v2
  have v4 : IVec S1x65536 32 := broadcastInDim S1x65536 ![1] bcast_S65536_S1x65536_1 lab
  have v5 : IVec S6x65536 32 := broadcastInDim S6x65536 ![0, 1] bcast_S6x1_S6x65536_0_1 v3
  have v6 : IVec S6x65536 32 := broadcastInDim S6x65536 ![0, 1] bcast_S1x65536_S6x65536_0_1 v4
  have v7 : IVec S6x65536 1 := cmpi .eq v5 v6
  have v8 : IVec S1x65536 1 := broadcastInDim S1x65536 ![1] bcast_S65536_S1x65536_1 v1
  have v9 : IVec S6x65536 1 := broadcastInDim S6x65536 ![0, 1] bcast_S1x65536_S6x65536_0_1 v8
  have v10 : IVec S6x65536 1 := andi v7 v9
  have v11 : FVec F S6x65536 .f32 := uitofp .f32 v10
  have cst : FVec F S_ .f32 := constant S_ .f32 0x00000000#32
  have v12 : FVec F S6 .f32 := Host.reduceAdd v11 cst reducesTo_S6x65536_S6_d1 h_S_
  v12

/-- The class means from the two slabs of partial sums and the class counts: the slabs added, divided by the count floored at 1. -/
def meanOf (slabs : FVec F S2x6x1024 .f32) (cnt : FVec F S6 .f32) : FVec F S6x1024 .f32 :=
  have v15 : FVec F S1x6x1024 .f32 := extractStridedSlice S1x6x1024 ![0, 0, 0] slabs slices_S2x6x1024_S1x6x1024_0_0_0
  have v16 : FVec F S6x1024 .f32 := shapeCast S6x1024 v15 shapeCasts_S1x6x1024_S6x1024
  have v17 : FVec F S1x6x1024 .f32 := extractStridedSlice S1x6x1024 ![1, 0, 0] slabs slices_S2x6x1024_S1x6x1024_1_0_0
  have v18 : FVec F S6x1024 .f32 := shapeCast S6x1024 v17 shapeCasts_S1x6x1024_S6x1024
  have v19 : FVec F S6x1024 .f32 := addf v16 v18
  have cst_0 : FVec F S_ .f32 := constant S_ .f32 0x3F800000#32
  have v20 : FVec F S6 .f32 := broadcastInDim S6 ![] bcast_S_S6 cst_0
  have v21 : FVec F S6 .f32 := maximumf cnt v20
  have v22 : FVec F S6x1 .f32 := broadcastInDim S6x1 ![0] bcast_S6_S6x1_0 v21
  have v23 : FVec F S6x1024 .f32 := broadcastInDim S6x1024 ![0, 1] bcast_S6x1_S6x1024_0_1 v22
  have v24 : FVec F S6x1024 .f32 := Host.divf v19 v23
  v24

/-- The prototypes scaled to unit length: each row divided by its Euclidean norm floored at eps. -/
def unitProto (p : FVec F S6x1024 .f32) : FVec F S6x1024 .f32 :=
  have v25 : FVec F S6x1024 .f32 := mulf p p
  have cst_1 : FVec F S_ .f32 := constant S_ .f32 0x00000000#32
  have v26 : FVec F S6 .f32 := Host.reduceAdd v25 cst_1 reducesTo_S6x1024_S6_d1 h_S_
  have v27 : FVec F S6x1 .f32 := broadcastInDim S6x1 ![0] bcast_S6_S6x1_0 v26
  have v28 : FVec F S6x1 .f32 := Host.sqrt v27
  have cst_2 : FVec F S_ .f32 := constant S_ .f32 0x2B8CBCCC#32
  have v29 : FVec F S6x1 .f32 := broadcastInDim S6x1 ![] bcast_S_S6x1 cst_2
  have v30 : FVec F S6x1 .f32 := maximumf v28 v29
  have v31 : FVec F S6x1024 .f32 := broadcastInDim S6x1024 ![0, 1] bcast_S6x1_S6x1024_0_1 v30
  have v32 : FVec F S6x1024 .f32 := Host.divf p v31
  v32

/-- The loss as a function of the class scores t and the similarity map sim: the softmax of t over the classes and the softmax of t over the pixels, each weighted against 1 - sim, summed and averaged. -/
def lossTail (t : FVec F S4x6x128x128 .f32) (sim : FVec F S4x6x128x128 .f32) : FVec F S_ .f32 :=
  have cst_3 : FVec F S_ .f32 := constant S_ .f32 0xFF800000#32
  have v36 : FVec F S4x128x128 .f32 := Host.reduce FloatOps.maximumf t cst_3 reducesTo_S4x6x128x128_S4x128x128_d1 h_S_
  have cst_4 : FVec F S_ .f32 := constant S_ .f32 0xFF800000#32
  have v37 : FVec F S4x128x128 .f32 := broadcastInDim S4x128x128 ![] bcast_S_S4x128x128 cst_4
  have v38 : FVec F S4x128x128 .f32 := maximumf v37 v36
  have v39 : FVec F S4x1x128x128 .f32 := broadcastInDim S4x1x128x128 ![0, 2, 3] bcast_S4x128x128_S4x1x128x128_0_2_3 v38
  have v40 : FVec F S4x6x128x128 .f32 := broadcastInDim S4x6x128x128 ![0, 1, 2, 3] bcast_S4x1x128x128_S4x6x128x128_0_1_2_3 v39
  have v41 : FVec F S4x6x128x128 .f32 := subf t v40
  have v42 : FVec F S4x6x128x128 .f32 := Host.exp v41
  have cst_5 : FVec F S_ .f32 := constant S_ .f32 0x00000000#32
  have v43 : FVec F S4x128x128 .f32 := Host.reduceAdd v42 cst_5 reducesTo_S4x6x128x128_S4x128x128_d1 h_S_
  have v44 : FVec F S4x1x128x128 .f32 := broadcastInDim S4x1x128x128 ![0, 2, 3] bcast_S4x128x128_S4x1x128x128_0_2_3 v43
  have v45 : FVec F S4x6x128x128 .f32 := broadcastInDim S4x6x128x128 ![0, 1, 2, 3] bcast_S4x1x128x128_S4x6x128x128_0_1_2_3 v44
  have v46 : FVec F S4x6x128x128 .f32 := Host.divf v42 v45
  have cst_6 : FVec F S_ .f32 := constant S_ .f32 0x3F800000#32
  have v47 : FVec F S4x6x128x128 .f32 := broadcastInDim S4x6x128x128 ![] bcast_S_S4x6x128x128 cst_6
  have v48 : FVec F S4x6x128x128 .f32 := subf v47 sim
  have v49 : FVec F S4x6x128x128 .f32 := mulf v46 v48
  have cst_7 : FVec F S_ .f32 := constant S_ .f32 0x00000000#32
  have v50 : FVec F S4x128x128 .f32 := Host.reduceAdd v49 cst_7 reducesTo_S4x6x128x128_S4x128x128_d1 h_S_
  have cst_8 : FVec F S_ .f32 := constant S_ .f32 0x00000000#32
  have v51 : FVec F S_ .f32 := Host.reduceAdd v50 cst_8 reducesTo_S4x128x128_S_d0_1_2 h_S_
  have cst_9 : FVec F S_ .f32 := constant S_ .f32 0x47800000#32
  have v52 : FVec F S_ .f32 := Host.divf v51 cst_9
  have v53 : FVec F S6x4x128x128 .f32 := transpose S6x4x128x128 [1, 0, 2, 3] t transposes_S4x6x128x128_S6x4x128x128_1_0_2_3
  have v54 : FVec F S6x65536 .f32 := shapeCast S6x65536 v53 shapeCasts_S6x4x128x128_S6x65536
  have cst_10 : FVec F S_ .f32 := constant S_ .f32 0xFF800000#32
  have v55 : FVec F S6 .f32 := Host.reduce FloatOps.maximumf v54 cst_10 reducesTo_S6x65536_S6_d1 h_S_
  have cst_11 : FVec F S_ .f32 := constant S_ .f32 0xFF800000#32
  have v56 : FVec F S6 .f32 := broadcastInDim S6 ![] bcast_S_S6 cst_11
  have v57 : FVec F S6 .f32 := maximumf v56 v55
  have v58 : FVec F S6x1 .f32 := broadcastInDim S6x1 ![0] bcast_S6_S6x1_0 v57
  have v59 : FVec F S6x65536 .f32 := broadcastInDim S6x65536 ![0, 1] bcast_S6x1_S6x65536_0_1 v58
  have v60 : FVec F S6x65536 .f32 := subf v54 v59
  have v61 : FVec F S6x65536 .f32 := Host.exp v60
  have cst_12 : FVec F S_ .f32 := constant S_ .f32 0x00000000#32
  have v62 : FVec F S6 .f32 := Host.reduceAdd v61 cst_12 reducesTo_S6x65536_S6_d1 h_S_
  have v63 : FVec F S6x1 .f32 := broadcastInDim S6x1 ![0] bcast_S6_S6x1_0 v62
  have v64 : FVec F S6x65536 .f32 := broadcastInDim S6x65536 ![0, 1] bcast_S6x1_S6x65536_0_1 v63
  have v65 : FVec F S6x65536 .f32 := Host.divf v61 v64
  have v66 : FVec F S6x4x128x128 .f32 := transpose S6x4x128x128 [1, 0, 2, 3] v48 transposes_S4x6x128x128_S6x4x128x128_1_0_2_3
  have v67 : FVec F S6x65536 .f32 := shapeCast S6x65536 v66 shapeCasts_S6x4x128x128_S6x65536
  have v68 : FVec F S6x65536 .f32 := mulf v65 v67
  have cst_13 : FVec F S_ .f32 := constant S_ .f32 0x00000000#32
  have v69 : FVec F S6 .f32 := Host.reduceAdd v68 cst_13 reducesTo_S6x65536_S6_d1 h_S_
  have cst_14 : FVec F S_ .f32 := constant S_ .f32 0x00000000#32
  have v70 : FVec F S_ .f32 := Host.reduceAdd v69 cst_14 reducesTo_S6_S_d0 h_S_
  have cst_15 : FVec F S_ .f32 := constant S_ .f32 0x40C00000#32
  have v71 : FVec F S_ .f32 := Host.divf v70 cst_15
  have v72 : FVec F S_ .f32 := addf v52 v71
  v72

end Cert.KernelIdeal.HostFns

end
-- ==== Proof.KGlue.lean ====
/-
  The kernel program's host side, read back: what the buffers hold at each boundary of @main's five segments, as the four
  host functions (HostFns) of the argument arrays and of the two regions' result arrays.

  * Before the first region the labels are only re-laid out ([65536] to [1, 65536]) and the class counts are formed from them.
  * Between the regions the two slabs of partial sums are added and divided by the floored counts (the class means), the
    prototypes are scaled to unit length and the target features re-laid out ([4,1024,128,128] to [4,1024,16384]).
  * After the second region the similarity map is re-laid out to [4,6,128,128] and fed, with the class scores, to the loss.
  No host operation and no region writes an argument array, so each is still the launch memory's wherever it is read.
-/
import proofs.«421650_j64458869178422_3_alg».proof.Proof.Gen.KernelIdeal.Frame
import proofs.«421650_j64458869178422_3_alg».proof.Proof.HostFns
import Idealize.ShloMosaic.Lib.StableHlo.Run

set_option maxRecDepth 16384

noncomputable section

namespace Cert.KernelIdeal.KGlue

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]

/-! ## Each stretch of host operations over ANY contents it starts from -/

section Stretches
variable (Wv : Valuation τ sig (Elt F))

/-- The first stretch leaves the labels row at the labels re-laid out, -/
theorem ops0_v13 : StableHlo.after hostOps0 Wv (Proc.devRef .tc main_v13)
    = shapeCast S1x65536 (Wv (Proc.devRef .tc main_arg4) : IVec S65536 32) shapeCasts_S65536_S1x65536 := by
  after_results_simp <;> rfl
/-- the class counts at the count of the labels, -/
theorem ops0_v12 : StableHlo.after hostOps0 Wv (Proc.devRef .tc main_v12)
    = classCount (F := F) (Wv (Proc.devRef .tc main_arg4) : IVec S65536 32) := by
  after_results_simp <;> rfl
/-- and the arguments where they were. -/
theorem ops0_arg (b : Ref sig .tc) (hb : b = main_arg0 ∨ b = main_arg1 ∨ b = main_arg2 ∨ b = main_arg3 ∨ b = main_arg4) :
    StableHlo.after hostOps0 Wv (Proc.devRef .tc b) = Wv (Proc.devRef .tc b) := by
  rcases hb with rfl | rfl | rfl | rfl | rfl <;> after_results_simp

/-- The second stretch leaves the class means at the mean of the slabs and the counts it finds, -/
theorem ops1_v24 : StableHlo.after hostOps1 Wv (Proc.devRef .tc main_v24)
    = meanOf (F := F) (Wv (Proc.devRef .tc main_v14)) (Wv (Proc.devRef .tc main_v12)) := by
  after_results_simp <;> rfl
/-- the unit prototypes at the scaled prototypes, -/
theorem ops1_v32 : StableHlo.after hostOps1 Wv (Proc.devRef .tc main_v32)
    = unitProto (F := F) (Wv (Proc.devRef .tc main_arg0)) := by
  after_results_simp <;> rfl
/-- the target features re-laid out, -/
theorem ops1_v33 : StableHlo.after hostOps1 Wv (Proc.devRef .tc main_v33)
    = shapeCast S4x1024x16384 (Wv (Proc.devRef .tc main_arg2) : FVec F S4x1024x128x128 .f32) shapeCasts_S4x1024x128x128_S4x1024x16384 := by
  after_results_simp <;> rfl
/-- and the class scores where they were. -/
theorem ops1_arg3 : StableHlo.after hostOps1 Wv (Proc.devRef .tc main_arg3) = Wv (Proc.devRef .tc main_arg3) := by
  after_results_simp

/-- The last stretch leaves the loss at the loss of the class scores and the re-laid-out similarity map it finds, -/
theorem ops2_v72 : StableHlo.after hostOps2 Wv (Proc.devRef .tc main_v72)
    = lossTail (F := F) (Wv (Proc.devRef .tc main_arg3))
        (shapeCast S4x6x128x128 (Wv (Proc.devRef .tc main_v34) : FVec F S4x6x16384 .f32) shapeCasts_S4x6x16384_S4x6x128x128) := by
  after_results_simp <;> rfl
/-- and the class means where they were. -/
theorem ops2_v24 : StableHlo.after hostOps2 Wv (Proc.devRef .tc main_v24) = Wv (Proc.devRef .tc main_v24) := by
  after_results_simp

end Stretches

end Cert.KernelIdeal.KGlue

end
-- ==== Proof.KBound.lean ====
/-
  The kernel program's run, boundary by boundary: what each region is entered with and what the two results end at,
  in terms of the launch memory's argument arrays and the two regions' result arrays.
-/
import proofs.«421650_j64458869178422_3_alg».proof.Proof.KGlue

set_option maxRecDepth 16384

noncomputable section

namespace Cert.KernelIdeal.KBound

open Cert.KernelIdeal Cert.KernelIdeal.Gen Cert.KernelIdeal.HostFns Cert.KernelIdeal.KGlue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first region's entry: the labels re-laid out, the features as launched -/

theorem V1_labels (c : Dev nD) : V1 m ρ c main_v13
    = shapeCast S1x65536 (m ((c : Thread nD τ).loc main_arg4) : IVec S65536 32) shapeCasts_S65536_S1x65536 :=
  ops0_v13 (W0 m ρ c)

theorem V1_feat (c : Dev nD) : V1 m ρ c main_arg1 = m ((c : Thread nD τ).loc main_arg1) :=
  ops0_arg (W0 m ρ c) main_arg1 (by simp)

/-! ## After the first region: its result array, the counts, the arguments -/

theorem W2_slabs (c : Dev nD) : W2 m ρ c (Proc.devRef .tc main_v14) = (dat0 (V1 m ρ) c).arrAt 2 cfg0.N :=
  W2_arr m ρ c 2

theorem W2_counts (c : Dev nD) : W2 m ρ c (Proc.devRef .tc main_v12)
    = classCount (F := F) (m ((c : Thread nD τ).loc main_arg4) : IVec S65536 32) :=
  (W2_of_ne m ρ c main_v12 (by decide)).trans (ops0_v12 (W0 m ρ c))

theorem W2_arg0 (c : Dev nD) : W2 m ρ c (Proc.devRef .tc main_arg0) = m ((c : Thread nD τ).loc main_arg0) :=
  (W2_of_ne m ρ c main_arg0 (by decide)).trans (ops0_arg (W0 m ρ c) main_arg0 (by simp))
theorem W2_arg2 (c : Dev nD) : W2 m ρ c (Proc.devRef .tc main_arg2) = m ((c : Thread nD τ).loc main_arg2) :=
  (W2_of_ne m ρ c main_arg2 (by decide)).trans (ops0_arg (W0 m ρ c) main_arg2 (by simp))
theorem W2_arg3 (c : Dev nD) : W2 m ρ c (Proc.devRef .tc main_arg3) = m ((c : Thread nD τ).loc main_arg3) :=
  (W2_of_ne m ρ c main_arg3 (by decide)).trans (ops0_arg (W0 m ρ c) main_arg3 (by simp))

/-! ## The second region's entry: the target features re-laid out, the unit prototypes -/

theorem V3_tfeat (c : Dev nD) : V3 m ρ c main_v33
    = shapeCast S4x1024x16384 (m ((c : Thread nD τ).loc main_arg2) : FVec F S4x1024x128x128 .f32) shapeCasts_S4x1024x128x128_S4x1024x16384 :=
  (ops1_v33 (W2 m ρ c)).trans (by rw [W2_arg2])

theorem V3_proto (c : Dev nD) : V3 m ρ c main_v32 = unitProto (F := F) (m ((c : Thread nD τ).loc main_arg0)) :=
  (ops1_v32 (W2 m ρ c)).trans (by rw [W2_arg0])

/-! ## The two results at the end -/

theorem W5_means (c : Dev nD) : W5 m ρ c (Proc.devRef .tc main_v24)
    = meanOf (F := F) ((dat0 (V1 m ρ) c).arrAt 2 cfg0.N) (classCount (F := F) (m ((c : Thread nD τ).loc main_arg4) : IVec S65536 32)) :=
  (ops2_v24 (W4 m ρ c)).trans ((W4_of_ne m ρ c main_v24 (by decide)).trans
    ((ops1_v24 (W2 m ρ c)).trans (by rw [W2_slabs, W2_counts])))

theorem W4_sim (c : Dev nD) : W4 m ρ c (Proc.devRef .tc main_v34) = (dat1 (V3 m ρ) c).arrAt 2 cfg1.N :=
  W4_arr m ρ c 2

theorem W4_arg3 (c : Dev nD) : W4 m ρ c (Proc.devRef .tc main_arg3) = m ((c : Thread nD τ).loc main_arg3) :=
  (W4_of_ne m ρ c main_arg3 (by decide)).trans ((ops1_arg3 (W2 m ρ c)).trans (W2_arg3 m ρ c))

theorem W5_loss (c : Dev nD) : W5 m ρ c (Proc.devRef .tc main_v72)
    = lossTail (F := F) (m ((c : Thread nD τ).loc main_arg3))
        (shapeCast S4x6x128x128 ((dat1 (V3 m ρ) c).arrAt 2 cfg1.N : FVec F S4x6x16384 .f32) shapeCasts_S4x6x16384_S4x6x128x128) :=
  (ops2_v72 (W4 m ρ c)).trans (by rw [W4_arg3, W4_sim])

end Cert.KernelIdeal.KBound

end
-- ==== Proof.Spec.lean ====
/-
  What the two programs compute, written once over plain coordinates on the extended reals.

  * Class means.  With labels L : 65536 → i32 and features X : 65536 × 1024, the indicator
    oh k l is 1 where the label l is class k (k < 6) and 0 elsewhere.  The per-class sum is
    ∑ n, oh k (L n) · X n a, the per-class count ∑ n, oh k (L n), and the mean their quotient
    with the count floored at 1.  The kernel forms the sum block by block: 32 row blocks of
    2048 rows, the first 16 accumulated into slab 0 and the last 16 into slab 1.
  * Cosine similarity.  For target features X : 4 × 1024 × (128·128) and unit prototypes
    Y : 6 × 1024, each pixel's feature column is divided by its Euclidean norm floored at eps
    and contracted against Y over the 1024 channels.
-/
import Idealize.ShloMosaic.PureOps.Ideal
import Idealize.ShloMosaic.Lib.ValueIdx

noncomputable section

namespace Cert.Spec

open Idealize.ShloMosaic

/-- Row r of row block t of the 65536 feature rows (blocks of 2048 rows). -/
def rowAt (t : Nat) (r : Fin 2048) : Fin 65536 := ⟨(2048 * t + r.val) % 65536, Nat.mod_lt _ (by decide)⟩

theorem rowAt_val (t : Nat) (ht : t < 32) (r : Fin 2048) : (rowAt t r).val = 2048 * t + r.val := by
  have := r.isLt
  show (2048 * t + r.val) % 65536 = _
  exact Nat.mod_eq_of_lt (by omega)

/-- The class indicator: 1 where the label is class k, 0 elsewhere. -/
def oh (k : Fin 6) (l : BitVec 32) : EReal := if l = BitVec.ofNat 32 k.val then 1 else 0

/-- Row block t's contribution to class k's sum of channel a. -/
def blkSum (L : Fin 65536 → BitVec 32) (X : Fin 65536 → Fin 1024 → EReal) (t : Nat) (k : Fin 6) (a : Fin 1024) : EReal :=
  ∑ r : Fin 2048, oh k (L (rowAt t r)) * X (rowAt t r) a

/-- Slab p of the kernel's partial sums: row blocks 16p … 16p + 15. -/
def segAt (L : Fin 65536 → BitVec 32) (X : Fin 65536 → Fin 1024 → EReal) (p : Fin 2) (k : Fin 6) (a : Fin 1024) : EReal :=
  ∑ q ∈ Finset.range 16, blkSum L X (16 * p.val + q) k a

/-- The per-class sum over all rows. -/
def sumAt (L : Fin 65536 → BitVec 32) (X : Fin 65536 → Fin 1024 → EReal) (k : Fin 6) (a : Fin 1024) : EReal :=
  ∑ n : Fin 65536, oh k (L n) * X n a

/-- The per-class count. -/
def cntAt (L : Fin 65536 → BitVec 32) (k : Fin 6) : EReal := ∑ n : Fin 65536, oh k (L n)

/-- The per-class mean, the count floored at 1. -/
def meanAt (L : Fin 65536 → BitVec 32) (X : Fin 65536 → Fin 1024 → EReal) (k : Fin 6) (a : Fin 1024) : EReal :=
  Ideal.div (sumAt L X k a) (max (cntAt L k) (Ideal.ofBits .f32 0x3F800000#32))

/-- A pixel column's Euclidean norm over the 1024 channels, floored at eps (flattened pixels). -/
def nrm3 (X : Fin 4 → Fin 1024 → Fin 16384 → EReal) (b : Fin 4) (s : Fin 16384) : EReal :=
  max (Ideal.sqrt (∑ a : Fin 1024, X b a s * X b a s)) (Ideal.ofBits .f32 0x2B8CBCCC#32)

/-- Similarity of pixel (b, s) to prototype k (flattened pixels). -/
def con3 (X : Fin 4 → Fin 1024 → Fin 16384 → EReal) (Y : Fin 6 → Fin 1024 → EReal) (b : Fin 4) (k : Fin 6) (s : Fin 16384) : EReal :=
  ∑ a : Fin 1024, Y k a * Ideal.div (X b a s) (nrm3 X b s)

/-- The same over 128 × 128 pixel coordinates. -/
def nrm4 (X : Fin 4 → Fin 1024 → Fin 128 → Fin 128 → EReal) (b : Fin 4) (h w : Fin 128) : EReal :=
  max (Ideal.sqrt (∑ a : Fin 1024, X b a h w * X b a h w)) (Ideal.ofBits .f32 0x2B8CBCCC#32)

def con4 (X : Fin 4 → Fin 1024 → Fin 128 → Fin 128 → EReal) (Y : Fin 6 → Fin 1024 → EReal) (b : Fin 4) (k : Fin 6) (h w : Fin 128) : EReal :=
  ∑ a : Fin 1024, Y k a * Ideal.div (X b a h w) (nrm4 X b h w)

/-- Pixel (h, w) flattened row-major. -/
def pix (h w : Fin 128) : Fin 16384 := ⟨128 * h.val + w.val, by have := h.isLt; have := w.isLt; omega⟩

end Cert.Spec

end
-- ==== Proof.ConDot.lean ====
/-
  The contraction of the second region: a (6 x 1024) matrix times a (1024 x 2048) matrix into a zero
  accumulator, read at an output coordinate (k, s), is the sum over the 1024 channels a of the left factor
  at (k, a) times the right factor at (a, s).
-/
import proofs.«421650_j64458869178422_3_alg».proof.Proof.Gen.KernelIdeal
import Idealize.ShloMosaic.Lib.ValueIdx
import Idealize.ShloMosaic.PureOps.Ideal.Laws

noncomputable section

namespace Cert.KernelIdeal.ConValue

open Cert.KernelIdeal Cert.KernelIdeal.Gen Idealize.ShloMosaic Idealize.ShloMosaic.ValueIdx

/-- The left operand's row coordinate is the output's row coordinate. -/
theorem dotL_0 (i : S6x2048.Idx) (q : dot_S6x1024_S1024x2048_S6x2048_1_0_0_1_n_n.contr.Idx) :
    (dot_S6x1024_S1024x2048_S6x2048_1_0_0_1_n_n.lhsIdx i q 0).val = (i 0).val := by
  unfold DotDims.lhsIdx
  rw [dif_neg (show ¬(0 : Fin S6x1024.rank) ∈ dot_S6x1024_S1024x2048_S6x2048_1_0_0_1_n_n.lhsBatch by decide), dif_pos (show (0 : Fin S6x1024.rank) ∈ dot_S6x1024_S1024x2048_S6x2048_1_0_0_1_n_n.lhsNonContracting by decide)]
  rfl
/-- The left operand's column coordinate is the contracted channel. -/
theorem dotL_1 (i : S6x2048.Idx) (q : dot_S6x1024_S1024x2048_S6x2048_1_0_0_1_n_n.contr.Idx) :
    (dot_S6x1024_S1024x2048_S6x2048_1_0_0_1_n_n.lhsIdx i q 1).val = (q ⟨0, by decide⟩).val :=
  dot_S6x1024_S1024x2048_S6x2048_1_0_0_1_n_n.lhsIdx_val_of_single rfl i q
/-- The right operand's row coordinate is the contracted channel. -/
theorem dotR_0 (i : S6x2048.Idx) (q : dot_S6x1024_S1024x2048_S6x2048_1_0_0_1_n_n.contr.Idx) :
    (dot_S6x1024_S1024x2048_S6x2048_1_0_0_1_n_n.rhsIdx i q 0).val = (q ⟨0, by decide⟩).val :=
  dot_S6x1024_S1024x2048_S6x2048_1_0_0_1_n_n.rhsIdx_val_of_single rfl i q
/-- The right operand's column coordinate is the output's column coordinate. -/
theorem dotR_1 (i : S6x2048.Idx) (q : dot_S6x1024_S1024x2048_S6x2048_1_0_0_1_n_n.contr.Idx) :
    (dot_S6x1024_S1024x2048_S6x2048_1_0_0_1_n_n.rhsIdx i q 1).val = (i 1).val := by
  unfold DotDims.rhsIdx
  rw [dif_neg (show ¬(1 : Fin S1024x2048.rank) ∈ dot_S6x1024_S1024x2048_S6x2048_1_0_0_1_n_n.rhsBatch by decide), dif_pos (show (1 : Fin S1024x2048.rank) ∈ dot_S6x1024_S1024x2048_S6x2048_1_0_0_1_n_n.rhsNonContracting by decide)]
  rfl

/-- The product into the zero accumulator at (k, s): the sum over the channels. -/
theorem matmul_zero_at (l : FVec Ideal S6x1024 .bf16) (r : FVec Ideal S1024x2048 .bf16) (k : Fin 6) (s : Fin 2048) :
    matmul dot_S6x1024_S1024x2048_S6x2048_1_0_0_1_n_n none l r (constant (F := Ideal) S6x2048 .f32 0x00000000#32) (ix2 k s)
      = ∑ a : Fin 1024, l (ix2 k a) * r (ix2 a s) := by
  simp only [matmul]
  rw [Ideal.matmul_constant_zero_apply, ← Equiv.sum_comp (ValueIdx.contrEquiv1 dot_S6x1024_S1024x2048_S6x2048_1_0_0_1_n_n 1024 rfl rfl).symm]
  refine Finset.sum_congr rfl fun a _ => ?_
  have ha := ValueIdx.contrEquiv1_symm_val dot_S6x1024_S1024x2048_S6x2048_1_0_0_1_n_n 1024 rfl rfl a
  have el : dot_S6x1024_S1024x2048_S6x2048_1_0_0_1_n_n.lhsIdx (ix2 k s) ((ValueIdx.contrEquiv1 dot_S6x1024_S1024x2048_S6x2048_1_0_0_1_n_n 1024 rfl rfl).symm a) = ix2 k a := funext fun d => Fin.ext (by
    match d with
    | ⟨0, _⟩ => exact dotL_0 _ _
    | ⟨1, _⟩ => exact (dotL_1 _ _).trans ha)
  have er : dot_S6x1024_S1024x2048_S6x2048_1_0_0_1_n_n.rhsIdx (ix2 k s) ((ValueIdx.contrEquiv1 dot_S6x1024_S1024x2048_S6x2048_1_0_0_1_n_n 1024 rfl rfl).symm a) = ix2 a s := funext fun d => Fin.ext (by
    match d with
    | ⟨0, _⟩ => exact (dotR_0 _ _).trans ha
    | ⟨1, _⟩ => exact dotR_1 _ _)
  rw [el, er]

end Cert.KernelIdeal.ConValue

end
-- ==== Proof.ConPay.lean ====
/-
  The second region's payload read at a coordinate.  The block of target features is x : 1 x 1024 x 2048
  (channels a, pixels s) and the prototypes are y : 6 x 1024.  The payload at (0, k, s) is
      sum over a of  y (k, a) * ( x (0, a, s) / max (sqrt (sum over a' of x (0, a', s) * x (0, a', s))) eps ),
  every operation read at the coordinate it depends on: the leading unit axis dropped and restored, the
  column of squares summed over the channels, the floored norm spread back over the channels, the quotient
  contracted against the prototypes.
-/
import proofs.«421650_j64458869178422_3_alg».proof.Proof.Gen.KernelIdeal.Skeleton
import proofs.«421650_j64458869178422_3_alg».proof.Proof.ConDot
import Idealize.ShloMosaic.Lib.Pipeline.Value
import Idealize.ShloMosaic.Lib.ValueIdx
import Idealize.ShloMosaic.PureOps.Ideal.Laws

noncomputable section

namespace Cert.KernelIdeal.ConValue

open Cert.KernelIdeal Cert.KernelIdeal.Gen Idealize.ShloMosaic Idealize.ShloMosaic.ValueIdx

/-- The block with its unit axis dropped, at (a, s), is the block at (0, a, s). -/
theorem dropUnit_at (x : Vec Ideal S1x1024x2048 .f32) (h : S1x1024x2048.ShapeCasts S1024x2048) (a : Fin 1024) (s : Fin 2048) :
    (shapeCast S1024x2048 x h : S1024x2048.Idx → EReal) (ix2 a s) = x (ix3 0 a s) := by
  refine shapeCast_apply x h (ix2 a s) (ix3 0 a s) ?_
  rw [Shape.rowMajor_val_two, Shape.rowMajor_val_three]
  show (0 * 1024 + a.val) * 2048 + s.val = a.val * 2048 + s.val
  omega

/-- The sum over the channel axis at pixel s is the sum over the channels of the column at s. -/
theorem chanSum_at (z : FVec Ideal S1024x2048 .f32) (h : S1024x2048.Reduces [0] S2048) (hφ : FKind.Formats .f32)
    (hacc : (0x00000000#32 : BitVec 32) = 0x00000000#32) (s : Fin 2048) :
    multiReduction (F := Ideal) .add [0] S2048 z 0x00000000#32 h hφ hacc (ix1 s) = ∑ a : Fin 1024, z (ix2 a s) := by
  refine (Ideal.multiReduction_add_single z _ h hφ hacc (ix1 s)).trans ?_
  refine Finset.sum_congr rfl fun a _ => congrArg z ?_
  funext d
  apply Fin.ext
  match d with
  | ⟨0, _⟩ => rfl
  | ⟨1, _⟩ => rfl

/-- The row of sums with a unit axis put in front, at (0, s), is the sum at s. -/
theorem addUnit_row_at (z : S2048.Idx → EReal) (h : S2048.ShapeCasts S1x2048) (s : Fin 2048) :
    (shapeCast S1x2048 z h : S1x2048.Idx → EReal) (ix2 0 s) = z (ix1 s) := by
  refine shapeCast_apply z h (ix2 0 s) (ix1 s) ?_
  rw [Shape.rowMajor_val_one, Shape.rowMajor_val_two]
  show s.val = 0 * 2048 + s.val
  omega

/-- The row spread over the 1024 channels, at (a, s), is the row at (0, s). -/
theorem spread_at (z : S1x2048.Idx → EReal) (h : S1x2048.Broadcasts S1024x2048) (a : Fin 1024) (s : Fin 2048) :
    (broadcastTo S1024x2048 z h : S1024x2048.Idx → EReal) (ix2 a s) = z (ix2 0 s) := by
  refine broadcastTo_apply z h (ix2 a s) (ix2 0 s) fun d => ?_
  match d with
  | ⟨0, _⟩ => rfl
  | ⟨1, _⟩ => rfl

/-- The result with a unit axis put in front, at (0, k, s), is the result at (k, s). -/
theorem addUnit_out_at (z : S6x2048.Idx → EReal) (h : S6x2048.ShapeCasts S1x6x2048) (k : Fin 6) (s : Fin 2048) :
    (shapeCast S1x6x2048 z h : S1x6x2048.Idx → EReal) (ix3 0 k s) = z (ix2 k s) := by
  refine shapeCast_apply z h (ix3 0 k s) (ix2 k s) ?_
  rw [Shape.rowMajor_val_two, Shape.rowMajor_val_three]
  show k.val * 2048 + s.val = (0 * 6 + k.val) * 2048 + s.val
  omega

/-- The floor of the norm: the constant 1e-12 of the kernel, as a word. -/
abbrev eps : EReal := Ideal.ofBits .f32 0x2B8CBCCC#32

/-- THE PAYLOAD AT (0, k, s). -/
theorem pay_at (x : Vec Ideal S1x1024x2048 .f32) (y : Vec Ideal S6x1024 .f32) (k : Fin 6) (s : Fin 2048) :
    (k1_pay1 x y : S1x6x2048.Idx → EReal) (ix3 0 k s)
      = ∑ a : Fin 1024, y (ix2 k a) * Ideal.div (x (ix3 0 a s))
          (max (Ideal.sqrt (∑ a' : Fin 1024, x (ix3 0 a' s) * x (ix3 0 a' s))) eps) := by
  unfold k1_pay1
  refine (addUnit_out_at _ _ k s).trans ?_
  refine (matmul_zero_at _ _ k s).trans ?_
  refine Finset.sum_congr rfl fun a _ => ?_
  rw [truncf_apply, truncf_apply, shapeCast_self, divf_apply, dropUnit_at, spread_at, maximumf_apply, broadcast_apply]
  show y (ix2 k a) * Ideal.div (x (ix3 0 a s)) (max (Ideal.sqrt (shapeCast S1x2048 _ _ (ix2 0 s))) eps) = _
  rw [addUnit_row_at]
  refine congrArg (fun t => y (ix2 k a) * Ideal.div (x (ix3 0 a s)) (max (Ideal.sqrt t) eps)) ?_
  refine (chanSum_at _ _ _ _ s).trans ?_
  refine Finset.sum_congr rfl fun a' _ => ?_
  rw [mulf_apply, dropUnit_at]

end Cert.KernelIdeal.ConValue

end
-- ==== Proof.ConBlk.lean ====
/-
  The second region's blocks read off the arrays the region is entered with, and what a grid point leaves.
  Point t of the 4 x 8 grid handles batch t / 8 and pixel tile t % 8 (2048 pixels): its block of target
  features is rows (t / 8, a, 2048 (t % 8) + s') of the [4, 1024, 16384] array, its block of prototypes the
  whole [6, 1024] array, and what it leaves at (0, k, s') is the similarity of pixel 2048 (t % 8) + s' of
  batch t / 8 to prototype k.
-/
import proofs.«421650_j64458869178422_3_alg».proof.Proof.Gen.KernelIdeal.Frame
import proofs.«421650_j64458869178422_3_alg».proof.Proof.Spec
import proofs.«421650_j64458869178422_3_alg».proof.Proof.ConPay
import Idealize.ShloMosaic.Lib.Pipeline.Value
import Idealize.ShloMosaic.Lib.ValueIdx

noncomputable section

namespace Cert.KernelIdeal.ConValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The three index maps over the grid: the feature and result windows sit at block (t / 8, 0, t % 8), the
    prototype window at block (0, 0). -/
theorem blkIdx : ∀ t : Fin cfg1.N,
    win1_0.index t (0 : Fin 3) = t.val / 8 ∧ win1_0.index t (1 : Fin 3) = 0 ∧ win1_0.index t (2 : Fin 3) = t.val % 8
    ∧ win1_1.index t (0 : Fin 2) = 0 ∧ win1_1.index t (1 : Fin 2) = 0
    ∧ win1_2.index t (0 : Fin 3) = t.val / 8 ∧ win1_2.index t (1 : Fin 3) = 0 ∧ win1_2.index t (2 : Fin 3) = t.val % 8 :=
  (by decide +kernel : ∀ t : Fin grid1.N, _)

/-- The feature block at point t, at (0, a, s'), is the feature array at (t / 8, a, 2048 (t % 8) + s'). -/
theorem xblk_at (c : Dev nD) (t : Fin cfg1.N) (a : Fin 1024) (s' : Fin 2048) (i : S4x1024x16384.Idx)
    (h0 : (i 0).val = t.val / 8) (h1 : (i 1).val = a.val) (h2 : (i 2).val = 2048 * (t.val % 8) + s'.val) :
    (iblk1 V c 0 t : S1x1024x2048.Idx → EReal) (ix3 0 a s') = (V c main_v33 : S4x1024x16384.Idx → EReal) i := by
  obtain ⟨e0, e1, e2, -⟩ := blkIdx t
  unfold iblk1
  rw [View.read_apply]
  show (V c main_v33 : S4x1024x16384.Idx → EReal) _ = (V c main_v33 : S4x1024x16384.Idx → EReal) i
  congr 1
  funext d
  apply Fin.ext
  match d with
  | ⟨0, _⟩ => show win1_0.index t (0 : Fin 3) * 1 + 1 * 0 = (i 0).val; rw [e0, h0]; omega
  | ⟨1, _⟩ => show win1_0.index t (1 : Fin 3) * 1024 + 1 * a.val = (i 1).val; rw [e1, h1]; omega
  | ⟨2, _⟩ => show win1_0.index t (2 : Fin 3) * 2048 + 1 * s'.val = (i 2).val; rw [e2, h2]; omega

/-- The prototype block at any point is the prototype array. -/
theorem yblk_at (c : Dev nD) (t : Fin cfg1.N) (k : Fin 6) (a : Fin 1024) :
    (iblk1 V c 1 t : S6x1024.Idx → EReal) (ix2 k a) = (V c main_v32 : S6x1024.Idx → EReal) (ix2 k a) := by
  obtain ⟨-, -, -, e0, e1, -⟩ := blkIdx t
  unfold iblk1
  rw [View.read_apply]
  show (V c main_v32 : S6x1024.Idx → EReal) _ = (V c main_v32 : S6x1024.Idx → EReal) (ix2 k a)
  congr 1
  funext d
  apply Fin.ext
  match d with
  | ⟨0, _⟩ => show win1_1.index t (0 : Fin 2) * 6 + 1 * k.val = k.val; rw [e0]; omega
  | ⟨1, _⟩ => show win1_1.index t (1 : Fin 2) * 1024 + 1 * a.val = a.val; rw [e1]; omega

/-- The target features the region is entered with, pixels flattened. -/
abbrev feat (c : Dev nD) : Fin 4 → Fin 1024 → Fin 16384 → EReal :=
  fun b a s => (V c main_v33 : S4x1024x16384.Idx → EReal) (ix3 b a s)
/-- The unit prototypes the region is entered with. -/
abbrev proto (c : Dev nD) : Fin 6 → Fin 1024 → EReal :=
  fun k a => (V c main_v32 : S6x1024.Idx → EReal) (ix2 k a)

/-- WHAT POINT t LEAVES at (0, k, s'): the similarity of pixel s = 2048 (t % 8) + s' of batch b = t / 8 to
    prototype k. -/
theorem left_at (c : Dev nD) (t : Fin cfg1.N) (k : Fin 6) (s' : Fin 2048) (b : Fin 4) (s : Fin 16384)
    (hb : b.val = t.val / 8) (hs : s.val = 2048 * (t.val % 8) + s'.val) :
    (k1_pay1 (iblk1 V c 0 t) (iblk1 V c 1 t) : S1x6x2048.Idx → EReal) (ix3 0 k s')
      = Cert.Spec.con3 (feat V c) (proto V c) b k s := by
  refine (pay_at _ _ k s').trans ?_
  unfold Cert.Spec.con3 Cert.Spec.nrm3
  refine Finset.sum_congr rfl fun a _ => ?_
  have hx : ∀ a' : Fin 1024, (iblk1 V c 0 t : S1x1024x2048.Idx → EReal) (ix3 0 a' s') = feat V c b a' s :=
    fun a' => xblk_at V c t a' s' (ix3 b a' s) hb rfl hs
  have hy : (iblk1 V c 1 t : S6x1024.Idx → EReal) (ix2 k a) = proto V c k a := yblk_at V c t k a
  rw [hy, hx a]
  refine congrArg (fun z => proto V c k a * Ideal.div (feat V c b a s) (max (Ideal.sqrt z) eps)) ?_
  exact Finset.sum_congr rfl fun a' _ => by rw [hx a']

end Cert.KernelIdeal.ConValue

end
-- ==== Proof.ConFinal.lean ====
/-
  The second region's result array after the run.  Every grid point writes its block back, block t is the
  similarity of pixels 2048 (t % 8) … 2048 (t % 8) + 2047 of batch t / 8 to the six prototypes, and the 32
  blocks tile the [4, 6, 16384] array (pixel s of batch b lies in the block of point 8 b + s / 2048): so the
  array ends holding, at (b, k, s), the similarity of pixel s of batch b to prototype k.
-/
import proofs.«421650_j64458869178422_3_alg».proof.Proof.Gen.KernelIdeal.Frame
import proofs.«421650_j64458869178422_3_alg».proof.Proof.Spec
import proofs.«421650_j64458869178422_3_alg».proof.Proof.ConBlk
import Idealize.ShloMosaic.Lib.Pipeline.Value
import Idealize.ShloMosaic.Lib.ValueIdx
import Idealize.ShloMosaic.PureOps.Ideal.Laws

noncomputable section

namespace Cert.KernelIdeal.ConValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The target features the second region finds, pixels flattened. -/
abbrev tfeat (c : Dev nD) : Fin 4 → Fin 1024 → Fin 16384 → EReal := fun b a s => (V c main_v33 : S4x1024x16384.Idx → EReal) (ValueIdx.ix3 b a s)
/-- The unit prototypes the second region finds. -/
abbrev protoN (c : Dev nD) : Fin 6 → Fin 1024 → EReal := fun k a => (V c main_v32 : S6x1024.Idx → EReal) (ValueIdx.ix2 k a)

/-- The offsets of a whole-block access of rank 3, and of rank 2, are zero on every axis. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The similarity array: at (b, k, s), pixel s of batch b against prototype k. -/
def simArr (c : Dev nD) : S4x6x16384.Idx → EReal := fun i =>
  Cert.Spec.con3 (tfeat V c) (protoN V c) ⟨(i 0).val, (i 0).isLt⟩ ⟨(i 1).val, (i 1).isLt⟩ ⟨(i 2).val, (i 2).isLt⟩

/-- WHAT POINT t WRITES BACK is block t of the similarity array. -/
theorem flushed_eq (c : Dev nD) (t : Fin cfg1.N) :
    (dat1 V c).flushed 2 t = ((cfg1.win 2).blk t).view.read (Elt Ideal) (simArr V c) := by
  show (cfg1.win 2).cut (grid1.coords t) ((dat1 V c).after 2 t) = _
  rw [after1_2]
  unfold out1_2
  rw [View.canon_unit_zero zeros3]
  simp only [View.ld_unit_zero (S := S1x1024x2048) zeros3, View.ld_unit_zero (S := S6x1024) zeros2]
  funext y
  obtain ⟨z, k, s', rfl⟩ : ∃ (z : Fin 1) (k : Fin 6) (s' : Fin 2048), y = ValueIdx.ix3 z k s' :=
    ⟨y 0, y 1, y 2, ValueIdx.eq_ix3 y⟩
  obtain rfl : z = 0 := Subsingleton.elim _ _
  obtain ⟨-, -, -, -, -, e0, e1, e2⟩ := blkIdx t
  have ht : t.val < 32 := Nat.lt_of_lt_of_eq t.isLt N_1
  have hs' : s'.val < 2048 := s'.isLt
  show (k1_pay1 (iblk1 V c 0 t) (iblk1 V c 1 t) : S1x6x2048.Idx → EReal) (ValueIdx.ix3 0 k s')
    = simArr V c (((cfg1.win 2).blk t).view.emb (ValueIdx.ix3 0 k s'))
  refine (left_at V c t k s' ⟨t.val / 8, by omega⟩ ⟨2048 * (t.val % 8) + s'.val, by omega⟩ rfl rfl).trans ?_
  unfold simArr
  congr 1 <;> apply Fin.ext
  · show t.val / 8 = win1_2.index t (0 : Fin 3) * 1 + 1 * 0
    rw [e0]; omega
  · show k.val = win1_2.index t (1 : Fin 3) * 6 + 1 * k.val
    rw [e1]; omega
  · show 2048 * (t.val % 8) + s'.val = win1_2.index t (2 : Fin 3) * 2048 + 1 * s'.val
    rw [e2]; omega

/-- Every index of the array lies in the block of a point that writes back: pixel s of batch b in the block
    of point 8 b + s / 2048. -/
theorem covered (i : S4x6x16384.Idx) :
    ∃ t : Fin cfg1.N, (cfg1.win 2).flush t = true ∧ i ∈ ((cfg1.win 2).blk t).view.set := by
  have h0 : (i 0).val < 4 := (i 0).isLt
  have h1 : (i 1).val < 6 := (i 1).isLt
  have h2 : (i 2).val < 16384 := (i 2).isLt
  obtain ⟨t, ht⟩ : ∃ t : Fin cfg1.N, t.val = 8 * (i 0).val + (i 2).val / 2048 :=
    ⟨⟨8 * (i 0).val + (i 2).val / 2048, Nat.lt_of_lt_of_eq (by omega : 8 * (i 0).val + (i 2).val / 2048 < 32) N_1.symm⟩, rfl⟩
  obtain ⟨-, -, -, -, -, e0, e1, e2⟩ := blkIdx t
  refine ⟨t, flush1_2 t, ?_⟩
  show i ∈ ((View.whole main_v34).slice (win1_2.rect t)).set
  rw [View.set_slice_whole, Rect.mem_set_unit]
  intro a
  match a with
  | ⟨0, _⟩ =>
    show win1_2.index t (0 : Fin 3) * 1 ≤ (i 0).val ∧ (i 0).val < win1_2.index t (0 : Fin 3) * 1 + 1
    rw [e0]; omega
  | ⟨1, _⟩ =>
    show win1_2.index t (1 : Fin 3) * 6 ≤ (i 1).val ∧ (i 1).val < win1_2.index t (1 : Fin 3) * 6 + 6
    rw [e1]; omega
  | ⟨2, _⟩ =>
    show win1_2.index t (2 : Fin 3) * 2048 ≤ (i 2).val ∧ (i 2).val < win1_2.index t (2 : Fin 3) * 2048 + 2048
    rw [e2]; omega

/-- THE ARRAY AFTER THE RUN is the similarity array. -/
theorem final_arr (c : Dev nD) : (dat1 V c).arrAt 2 cfg1.N = simArr V c :=
  (dat1 V c).arrAt_eq_of_cover 2 (simArr V c) (fun t _ => flushed_eq V c t) (covered)

theorem con_final (c : Dev nD) (b : Fin 4) (k : Fin 6) (s : Fin 16384) :
    ((dat1 (F := Ideal) V c).arrAt 2 cfg1.N : S4x6x16384.Idx → EReal) (ValueIdx.ix3 b k s)
      = Cert.Spec.con3 (tfeat V c) (protoN V c) b k s := by
  rw [final_arr V c]
  rfl

end Cert.KernelIdeal.ConValue

end
-- ==== Proof.RefConIdx.lean ====
/-
  Index arithmetic for the reference's similarity map.  The reference flattens the pixel
  (b, h, w) of the 4 × 128 × 128 grid row-major to the row (b·128 + h)·128 + w of a
  65536-row matrix, contracts over the 1024 channels, and unflattens.  Each equation below
  reads one layout operation's source index at explicit coordinates.
-/
import proofs.«421650_j64458869178422_3_alg».proof.Proof.Gen.ReferenceIdeal.Read
import Idealize.ShloMosaic.Lib.ValueIdx

noncomputable section

namespace Cert.ReferenceIdeal.RefCon

open Cert.ReferenceIdeal Cert.ReferenceIdeal.Gen Cert.ReferenceIdeal.Read Idealize.ShloMosaic Idealize.ShloMosaic.ValueIdx

/-- Pixel (b, h, w) flattened row-major over the 4 × 128 × 128 grid. -/
def flat (b : Fin 4) (h w : Fin 128) : Fin 65536 :=
  ⟨(b.val * 128 + h.val) * 128 + w.val, by have := b.isLt; have := h.isLt; have := w.isLt; omega⟩

/-- The final transpose [0, 3, 1, 2]: result (b, k, h, w) reads source (b, h, w, k). -/
theorem idx_v42 (b : Fin 4) (k : Fin 6) (h w : Fin 128) :
    idx_main_v42 (ix4 b k h w) = ix4 b h w k :=
  funext fun a => Fin.ext (by match a with | ⟨0, _⟩ => rfl | ⟨1, _⟩ => rfl | ⟨2, _⟩ => rfl | ⟨3, _⟩ => rfl)

/-- The unflattening reshape: (b, h, w, k) reads row flat b h w, column k. -/
theorem idx_v41 (b : Fin 4) (h w : Fin 128) (k : Fin 6) :
    idx_main_v41 (ix4 b h w k) = ix2 (flat b h w) k :=
  funext fun a => Fin.ext (by
    have hb := b.isLt; have hh := h.isLt; have hw := w.isLt; have hk := k.isLt
    match a with
    | ⟨0, _⟩ =>
      show (((b.val * 128 + h.val) * 128 + w.val) * 6 + k.val) / 6 = (b.val * 128 + h.val) * 128 + w.val
      omega
    | ⟨1, _⟩ =>
      show (((b.val * 128 + h.val) * 128 + w.val) * 6 + k.val) % 6 = k.val
      omega)

/-- The contraction's left operand at (n, k), channel a: row n, column a. -/
theorem lidx_v40 (n : Fin 65536) (k : Fin 6) (a : Fin 1024) :
    lidx_main_v40 (ix2 n k) a = ix2 n a :=
  funext fun c => Fin.ext (by match c with | ⟨0, _⟩ => rfl | ⟨1, _⟩ => rfl)

/-- The contraction's right operand at (n, k), channel a: row a, column k. -/
theorem ridx_v40 (n : Fin 65536) (k : Fin 6) (a : Fin 1024) :
    ridx_main_v40 (ix2 n k) a = ix2 a k :=
  funext fun c => Fin.ext (by match c with | ⟨0, _⟩ => rfl | ⟨1, _⟩ => rfl)

/-- The prototype transpose: (a, k) reads (k, a). -/
theorem idx_v39 (a : Fin 1024) (k : Fin 6) :
    idx_main_v39 (ix2 a k) = ix2 k a :=
  funext fun c => Fin.ext (by match c with | ⟨0, _⟩ => rfl | ⟨1, _⟩ => rfl)

/-- The flattening reshape: row flat b h w, column a reads (b, h, w, a). -/
theorem idx_v30 (b : Fin 4) (h w : Fin 128) (a : Fin 1024) :
    idx_main_v30 (ix2 (flat b h w) a) = ix4 b h w a :=
  funext fun c => Fin.ext (by
    have hb := b.isLt; have hh := h.isLt; have hw := w.isLt; have ha := a.isLt
    match c with
    | ⟨0, _⟩ =>
      show (((b.val * 128 + h.val) * 128 + w.val) * 1024 + a.val) / 16777216 = b.val
      omega
    | ⟨1, _⟩ =>
      show (((b.val * 128 + h.val) * 128 + w.val) * 1024 + a.val) / 131072 % 128 = h.val
      omega
    | ⟨2, _⟩ =>
      show (((b.val * 128 + h.val) * 128 + w.val) * 1024 + a.val) / 1024 % 128 = w.val
      omega
    | ⟨3, _⟩ =>
      show (((b.val * 128 + h.val) * 128 + w.val) * 1024 + a.val) % 1024 = a.val
      omega)

/-- The feature transpose [0, 2, 3, 1]: (b, h, w, a) reads (b, a, h, w). -/
theorem idx_v29 (b : Fin 4) (h w : Fin 128) (a : Fin 1024) :
    idx_main_v29 (ix4 b h w a) = ix4 b a h w :=
  funext fun c => Fin.ext (by match c with | ⟨0, _⟩ => rfl | ⟨1, _⟩ => rfl | ⟨2, _⟩ => rfl | ⟨3, _⟩ => rfl)

/-- The norm's broadcast over the channels: (b, a, h, w) reads (b, 0, h, w). -/
theorem idx_v27 (b : Fin 4) (a : Fin 1024) (h w : Fin 128) :
    idx_main_v27 (ix4 b a h w) = ix4 b (0 : Fin 1) h w :=
  funext fun c => Fin.ext (by match c with | ⟨0, _⟩ => rfl | ⟨1, _⟩ => rfl | ⟨2, _⟩ => rfl | ⟨3, _⟩ => rfl)

/-- The unit channel axis inserted after the sum: (b, 0, h, w) reads (b, h, w). -/
theorem idx_v23 (b : Fin 4) (z : Fin 1) (h w : Fin 128) :
    idx_main_v23 (ix4 b z h w) = ix3 b h w :=
  funext fun c => Fin.ext (by match c with | ⟨0, _⟩ => rfl | ⟨1, _⟩ => rfl | ⟨2, _⟩ => rfl)

/-- The sum over the channels: term a' of the sum at (b, h, w) reads (b, a', h, w). -/
theorem idx_v22 (b : Fin 4) (h w : Fin 128) (a : Fin 1024) :
    idx_main_v22 (ix3 b h w) a = ix4 b a h w :=
  funext fun c => Fin.ext (by match c with | ⟨0, _⟩ => rfl | ⟨1, _⟩ => rfl | ⟨2, _⟩ => rfl | ⟨3, _⟩ => rfl)

end Cert.ReferenceIdeal.RefCon

end
-- ==== Proof.RefContrast.lean ====
/-
  The reference's similarity map at a pixel.  Reading the chain of operations backwards from the
  result: the transpose and reshape land on row (b·128 + h)·128 + w, column k of a contraction
  over the 1024 channels; its left factor is the feature x(b, a, h, w) divided by the pixel's
  floored Euclidean norm, its right factor the unit prototype at (k, a).
-/
import proofs.«421650_j64458869178422_3_alg».proof.Proof.Gen.ReferenceIdeal.Read
import proofs.«421650_j64458869178422_3_alg».proof.Proof.Spec
import proofs.«421650_j64458869178422_3_alg».proof.Proof.RefConIdx
import Idealize.ShloMosaic.Lib.Pipeline.Value
import Idealize.ShloMosaic.Lib.ValueIdx
import Idealize.ShloMosaic.PureOps.Ideal.Laws

noncomputable section

namespace Cert.ReferenceIdeal.RefCon

open Cert.ReferenceIdeal Cert.ReferenceIdeal.Gen Cert.ReferenceIdeal.Read Idealize.ShloMosaic Idealize.ShloMosaic.ValueIdx Idealize.SL.Sem

/-- The sum of squares over the channels at pixel (b, h, w); the sum's initial value is 0. -/
theorem sumsq_at (x2 : S4x1024x128x128.Idx → EReal) (b : Fin 4) (h w : Fin 128) :
    val_main_v22 (F := Ideal) x2 (ix3 b h w) = ∑ a : Fin 1024, x2 (ix4 b a h w) * x2 (ix4 b a h w) := by
  rw [val_main_v22_apply, val_main_cst_3_apply, Ideal.ofBits_def, Ideal.ofBits_zero_f32, zero_add]
  refine Finset.sum_congr rfl fun a _ => ?_
  rw [idx_v22, val_main_v21_apply, Ideal.mulf_def]

/-- The norm floored at eps, read at (b, 0, h, w): square root of the sum of squares, then the maximum with eps. -/
theorem nrm_at (x2 : S4x1024x128x128.Idx → EReal) (b : Fin 4) (z : Fin 1) (h w : Fin 128) :
    val_main_v26 (F := Ideal) x2 (ix4 b z h w) = Cert.Spec.nrm4 (fun b a h w => x2 (ix4 b a h w)) b h w := by
  rw [val_main_v26_apply, val_main_v24_apply, val_main_v23_apply, idx_v23, sumsq_at, val_main_v25_apply,
    val_main_cst_4_apply, Ideal.ofBits_def, Ideal.hostUnary_sqrt_def, Ideal.maximumf_def]
  rfl

/-- The normalised feature matrix at row flat b h w, column a: x(b, a, h, w) over the floored norm of pixel (b, h, w). -/
theorem feat_at (x2 : S4x1024x128x128.Idx → EReal) (b : Fin 4) (h w : Fin 128) (a : Fin 1024) :
    val_main_v30 (F := Ideal) x2 (ix2 (flat b h w) a)
      = Ideal.div (x2 (ix4 b a h w)) (Cert.Spec.nrm4 (fun b a h w => x2 (ix4 b a h w)) b h w) := by
  rw [val_main_v30_apply, idx_v30, val_main_v29_apply, idx_v29, val_main_v28_apply, val_main_v27_apply, idx_v27,
    nrm_at, Ideal.hostDivf_def]

/-- The transposed unit prototypes at (a, k) are the unit prototypes at (k, a). -/
theorem proto_at (x0 : S6x1024.Idx → EReal) (a : Fin 1024) (k : Fin 6) :
    val_main_v39 (F := Ideal) x0 (ix2 a k) = val_main_v38 (F := Ideal) x0 (ix2 k a) := by
  rw [val_main_v39_apply, idx_v39]

end Cert.ReferenceIdeal.RefCon

namespace Cert.ReferenceIdeal.RefValue

open Cert.ReferenceIdeal Cert.ReferenceIdeal.Gen Cert.ReferenceIdeal.Read Idealize.ShloMosaic Idealize.ShloMosaic.TcCoe Idealize.SL.Sem

/-- The reference's similarity map at a pixel: the contraction over the channels of the normalised feature column
    against the unit prototype (its own term for the unit prototypes, val_main_v38, left unopened). -/
theorem ref_contrast (x0 : S6x1024.Idx → EReal) (x2 : S4x1024x128x128.Idx → EReal) (b : Fin 4) (k : Fin 6) (h w : Fin 128) :
    val_main_v42 (F := Ideal) x0 x2 (ValueIdx.ix4 b k h w)
      = Cert.Spec.con4 (fun b a h w => x2 (ValueIdx.ix4 b a h w)) (fun k a => val_main_v38 (F := Ideal) x0 (ValueIdx.ix2 k a)) b k h w := by
  rw [val_main_v42_apply, RefCon.idx_v42, val_main_v41_apply, RefCon.idx_v41, val_main_v40_apply]
  unfold Cert.Spec.con4
  refine Finset.sum_congr rfl fun a _ => ?_
  rw [RefCon.lidx_v40, RefCon.ridx_v40, RefCon.feat_at, RefCon.proto_at, mul_comm]

end Cert.ReferenceIdeal.RefValue

end
-- ==== Proof.RefTail.lean ====
/-
  The two programs share their host arithmetic.  The reference's loss is the same function of the class scores and the
  similarity map as the kernel program's: both apply one chain of host operations (the softmax of the class scores over
  the classes and over the pixels, each weighted against one minus the similarity, summed and averaged).  Likewise the
  reference scales the prototypes to unit length by the very operations the kernel program uses.  Both facts hold by
  unfolding the definitions: the operations are the same, in the same order, over the same shapes.
-/
import proofs.«421650_j64458869178422_3_alg».proof.Proof.Gen.ReferenceIdeal.Read
import proofs.«421650_j64458869178422_3_alg».proof.Proof.Gen.KernelIdeal
import proofs.«421650_j64458869178422_3_alg».proof.Proof.HostFns

set_option maxRecDepth 16384

noncomputable section

namespace Cert.ReferenceIdeal.RefTail

open Idealize.ShloMosaic Idealize.ShloMosaic.TcCoe Idealize.SL.Sem

variable {F : FTy → Type} [FloatOps F]

/-- The reference's loss stage is the shared loss function of its class scores and its similarity stage. -/
theorem loss_eq (x0 : Cert.ReferenceIdeal.S6x1024.Idx → Elt F .f32) (x2 : Cert.ReferenceIdeal.S4x1024x128x128.Idx → Elt F .f32)
    (x3 : Cert.ReferenceIdeal.S4x6x128x128.Idx → Elt F .f32) :
    Cert.ReferenceIdeal.Read.val_main_v79 (F := F) x0 x2 x3
      = Cert.KernelIdeal.HostFns.lossTail (F := F) x3 (Cert.ReferenceIdeal.Read.val_main_v42 (F := F) x0 x2) := rfl

/-- The reference's unit prototypes are the shared scaling of the prototypes. -/
theorem proto_eq (x0 : Cert.ReferenceIdeal.S6x1024.Idx → Elt F .f32) :
    Cert.ReferenceIdeal.Read.val_main_v38 (F := F) x0 = Cert.KernelIdeal.HostFns.unitProto (F := F) x0 := rfl

end Cert.ReferenceIdeal.RefTail

end
-- ==== Proof.KHostIdx.lean ====
/-
  The kernel program's host operations read at an index, over explicit coordinates.
  * The class count at k is the sum over the 65536 rows of the indicator of (label = k): the weight of a
    row is the one-bit word (k = label) and (label ≠ 255) converted to a float, and a class index below 6
    is never 255.
  * The class mean at (k, a) is the sum of the two slabs' entries at (k, a) over the count floored at 1.
  * Three re-layouts between row-major shapes: the labels as a single row, the target features with the
    128 × 128 pixels flattened to 128·h + w, and the similarity map with them unflattened.
-/
import proofs.«421650_j64458869178422_3_alg».proof.Proof.HostFns
import proofs.«421650_j64458869178422_3_alg».proof.Proof.Spec
import proofs.«421650_j64458869178422_3_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KHostIdx

open Cert.KernelIdeal Idealize.ShloMosaic Idealize.ShloMosaic.ValueIdx Idealize.SL.Sem
open Cert.KernelIdeal.Facts₀ Cert.KernelIdeal.Facts

variable [Cert.KernelIdeal.Facts]

/-! ## Elementwise integer operations and the conversion, read at an index -/

section Pointwise
variable {s : Shape} {w : Nat}

/-- An unsigned-integer-to-float conversion at an index converts the element. -/
theorem uitofp_at (φ : FTy) (x : IVec s w) (i : s.Idx) :
    (uitofp φ x : FVec Ideal s φ) i = FloatOps.uitofp (F := Ideal) φ (x i) := rfl
/-- A bitwise and at an index is the and of the elements. -/
theorem andi_at (x y : IVec s w) (i : s.Idx) : andi x y i = IntOp.andi (x i) (y i) := rfl
/-- An integer comparison at an index compares the elements. -/
theorem cmpi_at (p : CmpIPredicate) (x y : IVec s w) (i : s.Idx) : cmpi p x y i = IntOp.cmpi p (x i) (y i) := rfl

end Pointwise

/-! ## The broadcasts of the class-count stretch, read at coordinates -/

section Bcast
variable {α : Type}

/-- A vector over the classes as a column: (k, 0) reads k. -/
theorem bc_6_6x1 (h : S6.BroadcastsInDim S6x1 (![0] : Fin 1 → Fin S6x1.rank)) (x : S6.Idx → α) (k : Fin 6) (z : Fin 1) :
    broadcastInDim S6x1 ![0] h x (ix2 k z) = x (ix1 k) :=
  broadcastInDim_apply _ h x _ _ (fun a => match a with
    | ⟨0, _⟩ => by show k.val = if (6 : Nat) = 1 then 0 else k.val; rw [if_neg (by decide)])

/-- A column over the classes repeated along the rows: (k, n) reads (k, 0). -/
theorem bc_6x1_6x65536 (h : S6x1.BroadcastsInDim S6x65536 (![0, 1] : Fin 2 → Fin S6x65536.rank)) (x : S6x1.Idx → α)
    (k : Fin 6) (n : Fin 65536) :
    broadcastInDim S6x65536 ![0, 1] h x (ix2 k n) = x (ix2 k (0 : Fin 1)) :=
  broadcastInDim_apply _ h x _ _ (fun a => match a with
    | ⟨0, _⟩ => by show k.val = if (6 : Nat) = 1 then 0 else k.val; rw [if_neg (by decide)]
    | ⟨1, _⟩ => by show 0 = if (1 : Nat) = 1 then 0 else n.val; rw [if_pos rfl])

/-- A vector over the rows as a single row: (0, n) reads n. -/
theorem bc_65536_1x65536 (h : S65536.BroadcastsInDim S1x65536 (![1] : Fin 1 → Fin S1x65536.rank)) (x : S65536.Idx → α)
    (z : Fin 1) (n : Fin 65536) :
    broadcastInDim S1x65536 ![1] h x (ix2 z n) = x (ix1 n) :=
  broadcastInDim_apply _ h x _ _ (fun a => match a with
    | ⟨0, _⟩ => by show n.val = if (65536 : Nat) = 1 then 0 else n.val; rw [if_neg (by decide)])

/-- A single row repeated over the classes: (k, n) reads (0, n). -/
theorem bc_1x65536_6x65536 (h : S1x65536.BroadcastsInDim S6x65536 (![0, 1] : Fin 2 → Fin S6x65536.rank)) (x : S1x65536.Idx → α)
    (k : Fin 6) (n : Fin 65536) :
    broadcastInDim S6x65536 ![0, 1] h x (ix2 k n) = x (ix2 (0 : Fin 1) n) :=
  broadcastInDim_apply _ h x _ _ (fun a => match a with
    | ⟨0, _⟩ => by show 0 = if (1 : Nat) = 1 then 0 else k.val; rw [if_pos rfl]
    | ⟨1, _⟩ => by show n.val = if (65536 : Nat) = 1 then 0 else n.val; rw [if_neg (by decide)])

/-- A scalar spread over the rows reads the scalar. -/
theorem bc_scalar_65536 (h : S_.BroadcastsInDim S65536 (![] : Fin 0 → Fin S65536.rank)) (x : S_.Idx → α) (i : S65536.Idx) :
    broadcastInDim S65536 ![] h x i = x ix0 :=
  broadcastInDim_apply _ h x _ _ (fun a => a.elim0)

end Bcast

/-! ## The indicator weight -/

theorem uitofp_one : FloatOps.uitofp (F := Ideal) .f32 (1#1) = (1 : EReal) := by
  show (((1#1 : BitVec 1).toNat : ℝ) : EReal) = 1
  simp

theorem uitofp_zero : FloatOps.uitofp (F := Ideal) .f32 (0#1) = (0 : EReal) := by
  show (((0#1 : BitVec 1).toNat : ℝ) : EReal) = 0
  simp

/-- A class index below 6 is not the ignored label 255. -/
theorem class_ne_ignored (k : Fin 6) : IntOp.cmpi .ne (BitVec.ofNat 32 k.val) 255#32 = 1#1 := by
  fin_cases k <;> rfl

/-- The weight of a row with label l in class k's count: the bit (k = l) and (l ≠ 255), as a float, is the indicator of l = k. -/
theorem weight_eq (k : Fin 6) (l : BitVec 32) :
    FloatOps.uitofp (F := Ideal) .f32 (IntOp.andi (IntOp.cmpi .eq (BitVec.ofNat 32 k.val) l) (IntOp.cmpi .ne l 255#32))
      = Cert.Spec.oh k l := by
  unfold Cert.Spec.oh
  by_cases h : l = BitVec.ofNat 32 k.val
  · subst h
    rw [if_pos rfl, class_ne_ignored]
    have h1 : IntOp.cmpi .eq (BitVec.ofNat 32 k.val) (BitVec.ofNat 32 k.val) = 1#1 := by
      simp [IntOp.cmpi]
    rw [h1]
    exact uitofp_one
  · rw [if_neg h]
    have h1 : IntOp.cmpi .eq (BitVec.ofNat 32 k.val) l = 0#1 := by
      have : (BitVec.ofNat 32 k.val == l) = false := by
        rw [beq_eq_false_iff_ne]; exact fun e => h e.symm
      simp [IntOp.cmpi, this]
    rw [h1]
    have h2 : IntOp.andi 0#1 (IntOp.cmpi .ne l 255#32) = 0#1 := by
      simp [IntOp.andi]
    rw [h2]
    exact uitofp_zero

/-! ## The class counts -/

/-- The count of class k: the sum over the rows of the indicator of (label = k); the sum's initial value is 0. -/
theorem classCount_apply (lab : IVec S65536 32) (k : Fin 6) :
    HostFns.classCount (F := Ideal) lab (ix1 k) = Cert.Spec.cntAt (fun n => lab (ix1 n)) k := by
  unfold HostFns.classCount Cert.Spec.cntAt
  simp only [Host.reduceAdd, Ideal.hostReduceAdd_def]
  rw [Ideal.hostReduceAdd_single reducesTo_S6x65536_S6_d1 (by decide), constant_apply, Ideal.ofBits_zero_f32, zero_add]
  refine Finset.sum_congr rfl fun (n : Fin 65536) _ => ?_
  have hidx : ∀ h : S6x65536.Reduces [1] S6, h.lift (ix1 k) n = ix2 k n := fun h =>
    funext fun a => Fin.ext (by match a with | ⟨0, _⟩ => rfl | ⟨1, _⟩ => rfl)
  rw [hidx, uitofp_at, andi_at, cmpi_at, bc_6x1_6x65536, bc_6_6x1, bc_1x65536_6x65536, bc_65536_1x65536,
    bc_1x65536_6x65536, bc_65536_1x65536, cmpi_at, bc_scalar_65536]
  exact weight_eq k (lab (ix1 n))

/-! ## The class means -/

section Mean
variable {α : Type}

/-- The host's division at an index divides the elements. -/
theorem hostDivf_at {s : Shape} {φ : FTy} (x y : FVec Ideal s φ) (i : s.Idx) : Host.divf x y i = Ideal.div (x i) (y i) := rfl

/-- Slab 0 of the partial sums: (0, k, a) of the slice reads (0, k, a). -/
theorem slab0_at (hs : S2x6x1024.Slices ![0, 0, 0] S1x6x1024) (x : S2x6x1024.Idx → α) (z : Fin 1) (k : Fin 6) (a : Fin 1024) :
    extractStridedSlice S1x6x1024 ![0, 0, 0] x hs (ix3 z k a) = x (ix3 (0 : Fin 2) k a) :=
  extractStridedSlice_apply _ x hs _ _ (fun ax => by
    match ax with
    | ⟨0, _⟩ => show 0 = 0 + z.val; omega
    | ⟨1, _⟩ => exact (Nat.zero_add _).symm
    | ⟨2, _⟩ => exact (Nat.zero_add _).symm)

/-- Slab 1 of the partial sums: (0, k, a) of the slice reads (1, k, a). -/
theorem slab1_at (hs : S2x6x1024.Slices ![1, 0, 0] S1x6x1024) (x : S2x6x1024.Idx → α) (z : Fin 1) (k : Fin 6) (a : Fin 1024) :
    extractStridedSlice S1x6x1024 ![1, 0, 0] x hs (ix3 z k a) = x (ix3 (1 : Fin 2) k a) :=
  extractStridedSlice_apply _ x hs _ _ (fun ax => by
    match ax with
    | ⟨0, _⟩ => show 1 = 1 + z.val; omega
    | ⟨1, _⟩ => exact (Nat.zero_add _).symm
    | ⟨2, _⟩ => exact (Nat.zero_add _).symm)

/-- A column over the classes repeated along the channels: (k, a) reads (k, 0). -/
theorem bc_6x1_6x1024 (h : S6x1.BroadcastsInDim S6x1024 (![0, 1] : Fin 2 → Fin S6x1024.rank)) (x : S6x1.Idx → α)
    (k : Fin 6) (a : Fin 1024) :
    broadcastInDim S6x1024 ![0, 1] h x (ix2 k a) = x (ix2 k (0 : Fin 1)) :=
  broadcastInDim_apply _ h x _ _ (fun ax => match ax with
    | ⟨0, _⟩ => by show k.val = if (6 : Nat) = 1 then 0 else k.val; rw [if_neg (by decide)]
    | ⟨1, _⟩ => by show 0 = if (1 : Nat) = 1 then 0 else a.val; rw [if_pos rfl])

/-- A scalar spread over the classes reads the scalar. -/
theorem bc_scalar_6 (h : S_.BroadcastsInDim S6 (![] : Fin 0 → Fin S6.rank)) (x : S_.Idx → α) (i : S6.Idx) :
    broadcastInDim S6 ![] h x i = x ix0 :=
  broadcastInDim_apply _ h x _ _ (fun a => a.elim0)

end Mean

/-- The mean of class k at channel a: the two slabs' partial sums added, over the count floored at 1. -/
theorem meanOf_apply (slabs : FVec Ideal S2x6x1024 .f32) (cnt : FVec Ideal S6 .f32) (k : Fin 6) (a : Fin 1024) :
    HostFns.meanOf (F := Ideal) slabs cnt (ix2 k a)
      = Ideal.div (slabs (ix3 0 k a) + slabs (ix3 1 k a)) (max (cnt (ix1 k)) (Ideal.ofBits .f32 0x3F800000#32)) := by
  unfold HostFns.meanOf
  simp only [hostDivf_at, addf_apply, shapeCast_1ab_ab_apply, slab0_at, slab1_at]
  rw [bc_6x1_6x1024, bc_6_6x1, maximumf_apply, bc_scalar_6, constant_apply]

/-! ## The re-layouts between the host's shapes and the kernels' -/

/-- The labels as a single row: (0, n) reads n. -/
theorem relay_labels (hc : S65536.ShapeCasts S1x65536) (lab : IVec S65536 32) (n : Fin 65536) :
    shapeCast S1x65536 lab hc (ix2 (0 : Fin 1) n) = lab (ix1 n) :=
  shapeCast_a_1a_apply lab hc 0 n

/-- The target features with the pixels flattened: (b, a, 128·h + w) reads (b, a, h, w). -/
theorem relay_tfeat (hc : S4x1024x128x128.ShapeCasts S4x1024x16384) (x : FVec Ideal S4x1024x128x128 .f32)
    (b : Fin 4) (a : Fin 1024) (h w : Fin 128) :
    shapeCast S4x1024x16384 x hc (ix3 b a (Cert.Spec.pix h w)) = x (ix4 b a h w) :=
  shapeCast_apply x hc _ _ (by
    have hb := b.isLt; have ha := a.isLt; have hh := h.isLt; have hw := w.isLt
    rw [Shape.rowMajor_val_four, Shape.rowMajor_val_three]
    show ((b.val * 1024 + a.val) * 128 + h.val) * 128 + w.val = (b.val * 1024 + a.val) * 16384 + (128 * h.val + w.val)
    omega)

/-- The similarity map with the pixels unflattened: (b, k, h, w) reads (b, k, 128·h + w). -/
theorem relay_sim (hc : S4x6x16384.ShapeCasts S4x6x128x128) (y : FVec Ideal S4x6x16384 .f32)
    (b : Fin 4) (k : Fin 6) (h w : Fin 128) :
    shapeCast S4x6x128x128 y hc (ix4 b k h w) = y (ix3 b k (Cert.Spec.pix h w)) :=
  shapeCast_apply y hc _ _ (by
    have hb := b.isLt; have hk := k.isLt; have hh := h.isLt; have hw := w.isLt
    rw [Shape.rowMajor_val_three, Shape.rowMajor_val_four]
    show (b.val * 6 + k.val) * 16384 + (128 * h.val + w.val) = ((b.val * 6 + k.val) * 128 + h.val) * 128 + w.val
    omega)

end Cert.KernelIdeal.KHostIdx

end
-- ==== Proof.BridgeLoss.lean ====
/-
  The losses agree.  The kernel program's similarity map, re-laid out to [4, 6, 128, 128], is the reference's: at pixel
  (b, h, w) and prototype k both are the contraction over the 1024 channels of the unit prototype against the pixel's
  feature column divided by its norm floored at eps (the kernel multiplies prototype by feature, the reference feature
  by prototype: multiplication on the extended reals is commutative, and that is already inside the two per-entry
  readings).  The loss is one and the same function of the class scores and that map on both sides.
-/
import proofs.«421650_j64458869178422_3_alg».proof.Proof.KBound
import proofs.«421650_j64458869178422_3_alg».proof.Proof.ConFinal
import proofs.«421650_j64458869178422_3_alg».proof.Proof.RefContrast
import proofs.«421650_j64458869178422_3_alg».proof.Proof.RefTail
import proofs.«421650_j64458869178422_3_alg».proof.Proof.KHostIdx

set_option maxRecDepth 16384

noncomputable section

namespace Cert.Proof.BridgeLoss

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel program's similarity map, re-laid out, is the reference's similarity stage of the same arguments. -/
theorem sim_eq (c : Dev nD) :
    shapeCast S4x6x128x128 ((dat1 (V3 m ρ) c).arrAt 2 cfg1.N : FVec Ideal S4x6x16384 .f32) shapeCasts_S4x6x16384_S4x6x128x128
      = Cert.ReferenceIdeal.Read.val_main_v42 (F := Ideal) (m ((c : Thread nD τ).loc main_arg0)) (m ((c : Thread nD τ).loc main_arg2)) := by
  funext i
  obtain ⟨b, k, h, w, rfl⟩ : ∃ (b : Fin 4) (k : Fin 6) (h w : Fin 128), i = ValueIdx.ix4 b k h w :=
    ⟨i 0, i 1, i 2, i 3, ValueIdx.eq_ix4 i⟩
  rw [Cert.KernelIdeal.KHostIdx.relay_sim, Cert.KernelIdeal.ConValue.con_final, Cert.ReferenceIdeal.RefValue.ref_contrast]
  have hX : ∀ a : Fin 1024, Cert.KernelIdeal.ConValue.tfeat (V3 m ρ) c b a (Cert.Spec.pix h w)
      = m ((c : Thread nD τ).loc main_arg2) (ValueIdx.ix4 b a h w) := fun a => by
    show (V3 m ρ c main_v33 : S4x1024x16384.Idx → EReal) (ValueIdx.ix3 b a (Cert.Spec.pix h w)) = _
    rw [Cert.KernelIdeal.KBound.V3_tfeat]
    exact Cert.KernelIdeal.KHostIdx.relay_tfeat _ _ b a h w
  have hY : ∀ a : Fin 1024, Cert.KernelIdeal.ConValue.protoN (V3 m ρ) c k a
      = Cert.ReferenceIdeal.Read.val_main_v38 (F := Ideal) (m ((c : Thread nD τ).loc main_arg0)) (ValueIdx.ix2 k a) := fun a => by
    show (V3 m ρ c main_v32 : S6x1024.Idx → EReal) (ValueIdx.ix2 k a) = _
    rw [Cert.KernelIdeal.KBound.V3_proto, Cert.ReferenceIdeal.RefTail.proto_eq]
  unfold Cert.Spec.con3 Cert.Spec.con4 Cert.Spec.nrm3 Cert.Spec.nrm4
  simp only [hX, hY]

/-- The loss the kernel program ends with is the reference's loss stage of the same arguments. -/
theorem loss_eq (c : Dev nD) :
    W5 m ρ c (Proc.devRef .tc main_v72)
      = Cert.ReferenceIdeal.Read.val_main_v79 (F := Ideal) (m ((c : Thread nD τ).loc main_arg0)) (m ((c : Thread nD τ).loc main_arg2))
          (m ((c : Thread nD τ).loc main_arg3)) := by
  rw [Cert.KernelIdeal.KBound.W5_loss, sim_eq, Cert.ReferenceIdeal.RefTail.loss_eq]

end Cert.Proof.BridgeLoss

end
-- ==== Proof.SegPiece.lean ====
/-
  The two control cases of the class-sum body, read as values.

  Away from the start of a slab (inner grid coordinate nonzero) the body stores once: the block it
  finds plus the one-hot product of this row block.  At the start of a slab it first stores the zero
  block, reads it back, and stores the same update over it.
-/
import proofs.«421650_j64458869178422_3_alg».proof.Proof.Gen.KernelIdeal.Frame
import Idealize.ShloMosaic.Lib.Pipeline.Value
import Idealize.ShloMosaic.Lib.Tactic

noncomputable section

namespace Cert.KernelIdeal.SegValue

open Cert.KernelIdeal Cert.KernelIdeal.Gen Idealize.ShloMosaic Idealize.ShloMosaic.TcCoe Idealize.SL.Sem
open Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a slab's start: the block found, plus this row block's one-hot product. -/
theorem out_B (c : Dev nD) (i : grid0.Coords) (a2 : Memref sig .tc .vmem S1x2048 .i32) (h2 : a2.IsWhole)
    (a3 : Memref sig .tc .vmem S2048x1024 .f32) (h3 : a3.IsWhole) (a4 : Memref sig .tc .vmem S1x6x1024 .f32) (h4 : a4.IsWhole)
    (hc : ¬cond0_0 i) (x0 : Vec F S1x2048 .i32) (x1 : Vec F S2048x1024 .f32) (xo : Vec F S1x6x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x2048) hz2,
    View.ld_unit_zero (S := S2048x1024) hz2, View.ld_unit_zero (S := S1x6x1024) hz3]

/-- At a slab's start: the same update over the zero block just stored. -/
theorem out_A (c : Dev nD) (i : grid0.Coords) (a2 : Memref sig .tc .vmem S1x2048 .i32) (h2 : a2.IsWhole)
    (a3 : Memref sig .tc .vmem S2048x1024 .f32) (h3 : a3.IsWhole) (a4 : Memref sig .tc .vmem S1x6x1024 .f32) (h4 : a4.IsWhole)
    (hc : cond0_0 i) (x0 : Vec F S1x2048 .i32) (x1 : Vec F S2048x1024 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x6x1024) hz3, View.readCov_unit_zero (S := S1x6x1024) _ hz3]
  simp only [View.readAt_eq_ld, h2.read_unread, h3.read_unread, View.ld_unit_zero (S := S1x2048) hz2,
    View.ld_unit_zero (S := S2048x1024) hz2]

end Cert.KernelIdeal.SegValue

end
-- ==== Proof.SegPay.lean ====
/-
  The class-sum body's two stored values, read at one entry over the extended reals.

  The update stored at (0, k, a) is the entry found there plus the sum, over the 2048 rows r of the
  row block, of the class indicator of row r's label times the feature (r, a): the one-hot matrix
  is an integer comparison of the class number against the label (masked where the label is 255,
  which no class number below 6 equals), converted exactly, and the product into a zero accumulator
  is the plain sum over the contracted row axis.  The reset value is 0 everywhere.
-/
import proofs.«421650_j64458869178422_3_alg».proof.Proof.Gen.KernelIdeal.Skeleton
import proofs.«421650_j64458869178422_3_alg».proof.Proof.Spec
import Idealize.ShloMosaic.Lib.Pipeline.Value
import Idealize.ShloMosaic.Lib.ValueIdx
import Idealize.ShloMosaic.PureOps.Ideal.Laws

noncomputable section

namespace Cert.KernelIdeal.SegValue

open Cert.KernelIdeal Cert.KernelIdeal.Gen Idealize.ShloMosaic Idealize.ShloMosaic.ValueIdx

/-- The product's dimension numbers: (6 x 2048) times (2048 x 1024), contracting the 2048 rows. -/
abbrev DD : DotDims S6x2048 S2048x1024 S6x1024 := dot_S6x2048_S2048x1024_S6x1024_1_0_0_1_n_n

/-! ## The product's operand indices, axis by axis -/

theorem lhs_ax0 (i : S6x1024.Idx) (q : DD.contr.Idx) : (DD.lhsIdx i q 0).val = (i 0).val := by
  unfold DotDims.lhsIdx
  rw [dif_neg (show ¬(0 : Fin S6x2048.rank) ∈ DD.lhsBatch by decide), dif_pos (show (0 : Fin S6x2048.rank) ∈ DD.lhsNonContracting by decide)]
  rfl
theorem lhs_ax1 (i : S6x1024.Idx) (q : DD.contr.Idx) : (DD.lhsIdx i q 1).val = (q ⟨0, by decide⟩).val :=
  DD.lhsIdx_val_of_single rfl i q
theorem rhs_ax0 (i : S6x1024.Idx) (q : DD.contr.Idx) : (DD.rhsIdx i q 0).val = (q ⟨0, by decide⟩).val :=
  DD.rhsIdx_val_of_single rfl i q
theorem rhs_ax1 (i : S6x1024.Idx) (q : DD.contr.Idx) : (DD.rhsIdx i q 1).val = (i 1).val := by
  unfold DotDims.rhsIdx
  rw [dif_neg (show ¬(1 : Fin S2048x1024.rank) ∈ DD.rhsBatch by decide), dif_pos (show (1 : Fin S2048x1024.rank) ∈ DD.rhsNonContracting by decide)]
  rfl

set_option maxHeartbeats 400000 in
/-- The product into a zero accumulator at (k, a): the sum over the rows r of A (k, r) · B (r, a). -/
theorem mm_apply (A : FVec Ideal S6x2048 .bf16) (B : FVec Ideal S2048x1024 .bf16) (k : Fin 6) (a : Fin 1024) :
    (matmul DD none A B (constant S6x1024 .f32 0x00000000#32) : S6x1024.Idx → EReal) (ix2 k a)
      = ∑ r : Fin 2048, (A (ix2 k r) : EReal) * (B (ix2 r a) : EReal) := by
  refine (Ideal.matmul_constant_zero_apply DD none A B (ix2 k a)).trans ?_
  rw [← Equiv.sum_comp (ValueIdx.contrEquiv1 DD 2048 rfl rfl).symm]
  refine Finset.sum_congr rfl fun r _ => ?_
  have hr := ValueIdx.contrEquiv1_symm_val DD 2048 rfl rfl r
  have el : DD.lhsIdx (ix2 k a) ((ValueIdx.contrEquiv1 DD 2048 rfl rfl).symm r) = ix2 k r := funext fun b => Fin.ext (by
    match b with
    | ⟨0, _⟩ => exact lhs_ax0 _ _
    | ⟨1, _⟩ => exact (lhs_ax1 _ _).trans hr)
  have er : DD.rhsIdx (ix2 k a) ((ValueIdx.contrEquiv1 DD 2048 rfl rfl).symm r) = ix2 r a := funext fun b => Fin.ext (by
    match b with
    | ⟨0, _⟩ => exact (rhs_ax0 _ _).trans hr
    | ⟨1, _⟩ => exact rhs_ax1 _ _)
  rw [el, er]

/-! ## The one-hot weight -/

/-- The masked comparison word of class k against label l, converted exactly, is the class indicator. -/
theorem oh_word (k : Fin 6) (l : BitVec 32) :
    (FloatOps.sitofp (F := Ideal) .f32
        ((IntOp.andi (IntOp.cmpi .eq (BitVec.ofNat 32 k.val) l) (IntOp.cmpi .ne l 255#32)).setWidth 32) : EReal)
      = Cert.Spec.oh k l := by
  unfold Cert.Spec.oh
  show ((((IntOp.andi (IntOp.cmpi .eq (BitVec.ofNat 32 k.val) l) (IntOp.cmpi .ne l 255#32)).setWidth 32).toInt : ℝ) : EReal) = _
  by_cases h : l = BitVec.ofNat 32 k.val
  · subst h
    rw [if_pos rfl]
    have e : ∀ k : Fin 6, ((IntOp.andi (IntOp.cmpi .eq (BitVec.ofNat 32 k.val) (BitVec.ofNat 32 k.val))
        (IntOp.cmpi .ne (BitVec.ofNat 32 k.val) 255#32)).setWidth 32).toInt = 1 := by decide
    rw [e k]; norm_num
  · rw [if_neg h]
    have e : IntOp.cmpi .eq (BitVec.ofNat 32 k.val) l = 0#1 := by
      show BitVec.ofBool (BitVec.ofNat 32 k.val == l) = 0#1
      rw [beq_eq_false_iff_ne.mpr (Ne.symm h)]; rfl
    rw [e]
    show ((((0#1 &&& IntOp.cmpi .ne l 255#32).setWidth 32).toInt : ℝ) : EReal) = 0
    rw [BitVec.zero_and]
    norm_num

/-- The one-hot matrix of a row block's labels, as the body forms it. -/
def wgt {F : FTy → Type} [FloatOps F] (v3 : Vec F S1x2048 .i32) : FVec F S6x2048 .bf16 :=
  truncf .bf16 (sitofp .f32 (extui 32 (andi
    (cmpi .eq (iota .tc S6x2048 32 [0] iota_S6x2048_d0_w32)
      (broadcastTo S6x2048 (shapeCast S1x2048 (shapeCast S1x2048 v3 shapeCasts_S1x2048_S1x2048) shapeCasts_S1x2048_S1x2048) broadcasts_S1x2048_S6x2048))
    (cmpi .ne (broadcastTo S6x2048 (shapeCast S1x2048 (shapeCast S1x2048 v3 shapeCasts_S1x2048_S1x2048) shapeCasts_S1x2048_S1x2048) broadcasts_S1x2048_S6x2048)
      (broadcast S6x2048 255#32))) natLt_1_32)) bitsLt_bf16_f32

set_option maxHeartbeats 400000 in
/-- Its entry (k, r) is the class indicator of row r's label. -/
theorem wgt_apply (v3 : Vec Ideal S1x2048 .i32) (k : Fin 6) (r : Fin 2048) :
    (wgt v3 (ix2 k r) : EReal) = Cert.Spec.oh k (v3 (ix2 0 r)) := by
  have hb : broadcastTo S6x2048 (shapeCast S1x2048 (shapeCast S1x2048 v3 shapeCasts_S1x2048_S1x2048) shapeCasts_S1x2048_S1x2048) broadcasts_S1x2048_S6x2048 (ix2 k r)
      = v3 (ix2 0 r) := by
    refine (broadcastTo_apply _ broadcasts_S1x2048_S6x2048 (ix2 k r) (ix2 0 r) (fun b => ?_)).trans ?_
    · match b with
      | ⟨0, _⟩ => show (0 : Nat) = if (1 : Nat) = 1 then 0 else _; rw [if_pos rfl]
      | ⟨1, _⟩ => show r.val = if (2048 : Nat) = 1 then 0 else r.val; rw [if_neg (by decide)]
    · rw [shapeCast_self, shapeCast_self]
  have hi : iota .tc S6x2048 32 [0] iota_S6x2048_d0_w32 (ix2 k r) = BitVec.ofNat 32 k.val :=
    iota_single_apply .tc S6x2048 32 0 iota_S6x2048_d0_w32 (ix2 k r)
  show (FloatOps.sitofp (F := Ideal) .f32 ((IntOp.andi (IntOp.cmpi .eq (iota .tc S6x2048 32 [0] iota_S6x2048_d0_w32 (ix2 k r))
      (broadcastTo S6x2048 (shapeCast S1x2048 (shapeCast S1x2048 v3 shapeCasts_S1x2048_S1x2048) shapeCasts_S1x2048_S1x2048) broadcasts_S1x2048_S6x2048 (ix2 k r)))
    (IntOp.cmpi .ne (broadcastTo S6x2048 (shapeCast S1x2048 (shapeCast S1x2048 v3 shapeCasts_S1x2048_S1x2048) shapeCasts_S1x2048_S1x2048) broadcasts_S1x2048_S6x2048 (ix2 k r)) 255#32)).setWidth 32) : EReal) = _
  rw [hb, hi]
  exact oh_word k _

/-! ## The two stored values at an entry -/

/-- The reset value is 0 at every entry. -/
theorem pay1_apply (k : Fin 6) (a : Fin 1024) :
    (k0_pay1 (F := Ideal) (ix3 0 k a) : EReal) = 0 := by
  unfold k0_pay1
  refine (shapeCast_apply _ shapeCasts_S6x1024_S1x6x1024 (ix3 0 k a) (ix2 k a) (by
    rw [Shape.rowMajor_val_two, Shape.rowMajor_val_three]
    show k.val * 1024 + a.val = (0 * 6 + k.val) * 1024 + a.val
    omega)).trans ?_
  exact Ideal.ofBits_zero_f32

set_option maxHeartbeats 400000 in
/-- The update at (0, k, a): the entry found plus the row block's indicator-weighted column sum. -/
theorem pay2_apply (v3 : Vec Ideal S1x2048 .i32) (v15 : Vec Ideal S2048x1024 .f32) (v18 : Vec Ideal S1x6x1024 .f32)
    (k : Fin 6) (a : Fin 1024) :
    (k0_pay2 v3 v15 v18 (ix3 0 k a) : EReal)
      = (v18 (ix3 0 k a) : EReal) + ∑ r : Fin 2048, Cert.Spec.oh k (v3 (ix2 0 r)) * (v15 (ix2 r a) : EReal) := by
  unfold k0_pay2
  refine (shapeCast_apply _ shapeCasts_S6x1024_S1x6x1024 (ix3 0 k a) (ix2 k a) (by
    rw [Shape.rowMajor_val_two, Shape.rowMajor_val_three]
    show k.val * 1024 + a.val = (0 * 6 + k.val) * 1024 + a.val
    omega)).trans ?_
  refine (addf_apply _ _ (ix2 k a)).trans ?_
  refine congrArg₂ (· + ·) ?_ ?_
  · exact shapeCast_apply v18 shapeCasts_S1x6x1024_S6x1024 (ix2 k a) (ix3 0 k a) (by
      rw [Shape.rowMajor_val_two, Shape.rowMajor_val_three]
      show (0 * 6 + k.val) * 1024 + a.val = k.val * 1024 + a.val
      omega)
  · refine (mm_apply (wgt v3) (truncf .bf16 v15 bitsLt_bf16_f32) k a).trans ?_
    exact Finset.sum_congr rfl fun r _ => congrArg₂ (· * ·) (wgt_apply v3 k r) rfl

end Cert.KernelIdeal.SegValue

end
-- ==== Proof.SegBlk.lean ====
/-
  The class-sum region's input blocks, read by coordinates.

  Row block t of the labels is the 2048 labels at positions 2048·t + r of the one label row, and row
  block t of the features is the 2048 feature rows 2048·t + r: the block number of grid point t is
  16·(outer coordinate) + (inner coordinate) = t, and a block's entry sits in its array at
  block number × block size + position inside.
-/
import proofs.«421650_j64458869178422_3_alg».proof.Proof.Gen.KernelIdeal.Frame
import proofs.«421650_j64458869178422_3_alg».proof.Proof.Spec
import Idealize.ShloMosaic.Lib.ValueIdx

noncomputable section

namespace Cert.KernelIdeal.SegValue

open Cert.KernelIdeal Cert.KernelIdeal.Gen Idealize.ShloMosaic Idealize.ShloMosaic.TcCoe Idealize.SL.Sem
open Idealize.ShloMosaic.ValueIdx

variable {F : FTy → Type} [FloatOps F]
variable (V : (c : Dev nD) → (b : Ref sig .tc) → Buf (Elt F) ((c : Thread nD τ).loc b))

/-- The label row and the feature rows as the region finds them, and their blocks at a grid point. -/
abbrev larr (c : Dev nD) : Vec F S1x65536 .i32 := V c main_v13
abbrev farr (c : Dev nD) : Vec F S65536x1024 .f32 := V c main_arg1
abbrev lblk (c : Dev nD) (t : Fin cfg0.N) : Vec F S1x2048 .i32 := iblk0 V c 0 t
abbrev fblk (c : Dev nD) (t : Fin cfg0.N) : Vec F S2048x1024 .f32 := iblk0 V c 1 t

/-- The block numbers at grid point t: row block t of both inputs, slab t / 16 of the output. -/
theorem index_facts : ∀ t : Fin cfg0.N,
    win0_0.index t 0 = 0 ∧ win0_0.index t 1 = t.val ∧ win0_1.index t 0 = t.val ∧ win0_1.index t 1 = 0
      ∧ win0_2.index t 0 = t.val / 16 ∧ win0_2.index t 1 = 0 ∧ win0_2.index t 2 = 0 :=
  (by decide +kernel : ∀ t : Fin grid0.N,
    win0_0.index t 0 = 0 ∧ win0_0.index t 1 = t.val ∧ win0_1.index t 0 = t.val ∧ win0_1.index t 1 = 0
      ∧ win0_2.index t 0 = t.val / 16 ∧ win0_2.index t 1 = 0 ∧ win0_2.index t 2 = 0)

set_option maxHeartbeats 400000 in
/-- Label r of row block t is label 2048·t + r of the row. -/
theorem lblk_apply (c : Dev nD) (t : Fin cfg0.N) (r : Fin 2048) :
    lblk V c t (ix2 0 r) = larr V c (ix2 0 (Cert.Spec.rowAt t.val r)) := by
  have hN : t.val < 32 := lt_of_lt_of_eq t.isLt (show cfg0.N = 32 from N_0)
  have hi := index_facts t
  unfold lblk larr iblk0
  rw [View.read_apply]
  show V c main_v13 _ = V c main_v13 _
  congr 1
  funext b
  apply Fin.ext
  match b with
  | ⟨0, _⟩ => show win0_0.index t 0 * 1 + 1 * 0 = 0; rw [hi.1]
  | ⟨1, _⟩ => show win0_0.index t 1 * 2048 + 1 * r.val = (Cert.Spec.rowAt t.val r).val; rw [hi.2.1, Cert.Spec.rowAt_val _ hN]; omega

set_option maxHeartbeats 400000 in
/-- Feature row r of row block t is feature row 2048·t + r. -/
theorem fblk_apply (c : Dev nD) (t : Fin cfg0.N) (r : Fin 2048) (a : Fin 1024) :
    fblk V c t (ix2 r a) = farr V c (ix2 (Cert.Spec.rowAt t.val r) a) := by
  have hN : t.val < 32 := lt_of_lt_of_eq t.isLt (show cfg0.N = 32 from N_0)
  have hi := index_facts t
  unfold fblk farr iblk0
  rw [View.read_apply]
  show V c main_arg1 _ = V c main_arg1 _
  congr 1
  funext b
  apply Fin.ext
  match b with
  | ⟨0, _⟩ => show win0_1.index t 0 * 2048 + 1 * r.val = (Cert.Spec.rowAt t.val r).val; rw [hi.2.2.1, Cert.Spec.rowAt_val _ hN]; omega
  | ⟨1, _⟩ => show win0_1.index t 1 * 1024 + 1 * a.val = a.val; rw [hi.2.2.2.1]; omega

end Cert.KernelIdeal.SegValue

end
-- ==== Proof.SegAcc.lean ====
/-
  The running class sums.  After grid point n the output block holds, at (0, k, a), the sum of the
  row blocks' contributions from the start of n's slab through n: a point at a slab's start stores
  0 plus its own row block's contribution, every other point adds its contribution to what the
  point before left.  By induction on the point.
-/
import proofs.«421650_j64458869178422_3_alg».proof.Proof.SegPiece
import proofs.«421650_j64458869178422_3_alg».proof.Proof.SegPay
import proofs.«421650_j64458869178422_3_alg».proof.Proof.SegBlk

noncomputable section

namespace Cert.KernelIdeal.SegValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The labels by row number and the features by row and channel, as the region finds them. -/
abbrev lrow (c : Dev nD) : Fin 65536 → BitVec 32 := fun n => larr V c (ix2 0 n)
abbrev frow (c : Dev nD) : Fin 65536 → Fin 1024 → EReal := fun n a => farr V c (ix2 n a)

/-- A row block's indicator-weighted column sum, read off its blocks, is its contribution. -/
theorem blk_sum (c : Dev nD) (t : Fin cfg0.N) (k : Fin 6) (a : Fin 1024) :
    (∑ r : Fin 2048, Cert.Spec.oh k (lblk V c t (ix2 0 r)) * (fblk V c t (ix2 r a) : EReal))
      = Cert.Spec.blkSum (lrow V c) (frow V c) t.val k a := by
  unfold Cert.Spec.blkSum
  refine Finset.sum_congr rfl fun r _ => ?_
  rw [lblk_apply V c t r, fblk_apply V c t r a]

set_option maxHeartbeats 400000 in
/-- A point away from a slab's start adds its contribution to what the point before left. -/
theorem step_B (c : Dev nD) (t : Fin cfg0.N) (h0 : ¬t.val % 16 = 0) (k : Fin 6) (a : Fin 1024) :
    (outsAt0 V c t.val t.isLt (ix3 0 k a) : EReal)
      = (outsAt0 V c (t.val - 1) (Nat.lt_of_le_of_lt (Nat.sub_le _ _) t.isLt) (ix3 0 k a) : EReal)
        + Cert.Spec.blkSum (lrow V c) (frow V c) t.val k a := by
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (lblk V c t) (fblk V c t)
    (outsAt0 V c (t.val - 1) (Nat.lt_of_le_of_lt (Nat.sub_le _ _) t.isLt))) (ix3 0 k a)).trans ?_
  refine (pay2_apply (lblk V c t) (fblk V c t) (outsAt0 V c (t.val - 1) (Nat.lt_of_le_of_lt (Nat.sub_le _ _) t.isLt)) k a).trans ?_
  exact congrArg (_ + ·) (blk_sum V c t k a)

set_option maxHeartbeats 400000 in
/-- A point at a slab's start leaves its own contribution. -/
theorem step_A (c : Dev nD) (t : Fin cfg0.N) (h0 : t.val % 16 = 0) (k : Fin 6) (a : Fin 1024) :
    (outsAt0 V c t.val t.isLt (ix3 0 k a) : EReal) = Cert.Spec.blkSum (lrow V c) (frow V c) t.val k a := by
  rw [outsAt0_A V c t h0]
  refine (congrFun (out_A (F := Ideal) c (grid0.coords t) (ms0_0 t) (hs0_0 t) (ms0_1 t) (hs0_1 t) (ms0_2 t) (hs0_2 t)
    ((hcond0_0 t).mpr h0) (lblk V c t) (fblk V c t)) (ix3 0 k a)).trans ?_
  refine (pay2_apply (lblk V c t) (fblk V c t) (k0_pay1 (F := Ideal)) k a).trans ?_
  rw [pay1_apply k a, zero_add]
  exact blk_sum V c t k a

set_option maxHeartbeats 400000 in
/-- After point n the block holds the contributions of the row blocks from the start of n's slab
    (row block n − n mod 16) through n. -/
theorem outs_eq (c : Dev nD) (k : Fin 6) (a : Fin 1024) : ∀ (n : ℕ) (h : n < cfg0.N),
    (outsAt0 V c n h (ix3 0 k a) : EReal)
      = ∑ q ∈ Finset.range (n % 16 + 1), Cert.Spec.blkSum (lrow V c) (frow V c) (n - n % 16 + q) k a := by
  intro n
  induction n with
  | zero =>
    intro h
    refine (step_A V c ⟨0, h⟩ rfl k a).trans ?_
    simp
  | succ m ih =>
    intro h
    by_cases h0 : (m + 1) % 16 = 0
    · refine (step_A V c ⟨m + 1, h⟩ h0 k a).trans ?_
      rw [h0]
      simp
    · refine (step_B V c ⟨m + 1, h⟩ h0 k a).trans ?_
      show (outsAt0 V c m (Nat.lt_of_succ_lt h) (ix3 0 k a) : EReal) + _ = _
      rw [ih (Nat.lt_of_succ_lt h), Finset.sum_range_succ _ ((m + 1) % 16)]
      have e1 : (m + 1) % 16 = m % 16 + 1 := by omega
      have e2 : m + 1 - (m + 1) % 16 = m - m % 16 := by omega
      have e3 : m + 1 - (m + 1) % 16 + (m + 1) % 16 = m + 1 := Nat.sub_add_cancel (Nat.mod_le _ _)
      rw [e3, e2, e1]

/-- At the last point of a slab (n mod 16 = 15) the block holds the slab's whole sum. -/
theorem flush_val (c : Dev nD) (t : Fin cfg0.N) (h15 : t.val % 16 = 15) (p : Fin 2) (hp : p.val = t.val / 16)
    (k : Fin 6) (a : Fin 1024) :
    (outsAt0 V c t.val t.isLt (ix3 0 k a) : EReal) = Cert.Spec.segAt (lrow V c) (frow V c) p k a := by
  rw [outs_eq V c k a t.val t.isLt, h15]
  unfold Cert.Spec.segAt
  have e : t.val - 15 = 16 * p.val := by omega
  rw [e]

end Cert.KernelIdeal.SegValue

end
-- ==== Proof.SegOut.lean ====
/-
  The class-sum region's result array.  Slab p of the (2 x 6 x 1024) result is written back once,
  after the last point 16p + 15 of its slab, and what is written there is the slab's whole sum; the
  two slabs tile the array, so the array ends holding, at (p, k, a), the sum over row blocks
  16p … 16p + 15 of class k's contributions to channel a.
-/
import proofs.«421650_j64458869178422_3_alg».proof.Proof.SegAcc
import Idealize.ShloMosaic.Lib.Pipeline.Value

noncomputable section

namespace Cert.KernelIdeal.SegValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The closed form of the result array: entry (p, k, a) is slab p's sum for class k, channel a. -/
def segArr (c : Dev nD) : Vec Ideal S2x6x1024 .f32 :=
  fun i => Cert.Spec.segAt (lrow V c) (frow V c) (i 0) (i 1) (i 2)

theorem segArr_apply (c : Dev nD) (p : Fin 2) (k : Fin 6) (a : Fin 1024) :
    segArr V c (ix3 p k a) = Cert.Spec.segAt (lrow V c) (frow V c) p k a := rfl

set_option maxHeartbeats 400000 in
/-- Entry (0, k, a) of the output block at point t sits at (t / 16, k, a) of the array. -/
theorem oblk_emb (t : Fin cfg0.N) (p : Fin 2) (hp : p.val = t.val / 16) (k : Fin 6) (a : Fin 1024) :
    (((cfg0.win 2).blk t).view.emb (ix3 0 k a) : S2x6x1024.Idx) = ix3 p k a := by
  have hi := index_facts t
  funext b
  apply Fin.ext
  match b with
  | ⟨0, _⟩ => show win0_2.index t 0 * 1 + 1 * 0 = p.val; rw [hi.2.2.2.2.1, hp]; omega
  | ⟨1, _⟩ => show win0_2.index t 1 * 6 + 1 * k.val = k.val; rw [hi.2.2.2.2.2.1]; omega
  | ⟨2, _⟩ => show win0_2.index t 2 * 1024 + 1 * a.val = a.val; rw [hi.2.2.2.2.2.2]; omega

set_option maxHeartbeats 400000 in
/-- What a write-back writes is its block of the closed form. -/
theorem flushed_eq (c : Dev nD) (t : Fin cfg0.N) (hf : (cfg0.win 2).flush t = true) :
    (dat0 V c).flushed 2 t = ((cfg0.win 2).blk t).view.read (Elt Ideal) (segArr V c) := by
  have h15 : t.val % 16 = 15 := (flush0_2 t).mp hf
  have hN : t.val < 32 := lt_of_lt_of_eq t.isLt (show cfg0.N = 32 from N_0)
  show (cfg0.win 2).cut (grid0.coords t) ((dat0 V c).after 2 t) = _
  rw [after0_2]
  show (outsAt0 V c t.val t.isLt : S1x6x1024.Idx → EReal) = _
  funext j
  obtain ⟨j0, k, a, rfl⟩ : ∃ (j0 : Fin 1) (k : Fin 6) (a : Fin 1024), j = ix3 j0 k a := ⟨j 0, j 1, j 2, eq_ix3 j⟩
  obtain rfl : j0 = 0 := Subsingleton.elim _ _
  rw [View.read_apply]
  show (outsAt0 V c t.val t.isLt (ix3 0 k a) : EReal) = segArr V c (((cfg0.win 2).blk t).view.emb (ix3 0 k a))
  rw [oblk_emb t ⟨t.val / 16, by omega⟩ rfl k a, segArr_apply]
  exact flush_val V c t h15 ⟨t.val / 16, by omega⟩ rfl k a

set_option maxHeartbeats 400000 in
/-- Every entry of the array lies in a written-back block: slab p in the block of point 16p + 15. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 6 := (i 1).isLt
  have h2 : (i 2 : Nat) < 1024 := (i 2).isLt
  have hN : grid0.N = 32 := N_0
  have ht : 16 * (i 0 : Nat) + 15 < grid0.N := by rw [hN]; omega
  refine ⟨⟨16 * (i 0 : Nat) + 15, ht⟩, (flush0_2 _).mpr (by show (16 * (i 0 : Nat) + 15) % 16 = 15; omega), ?_⟩
  have hi := index_facts ⟨16 * (i 0 : Nat) + 15, ht⟩
  show i ∈ ((View.whole main_v14).slice (win0_2.rect ⟨16 * (i 0 : Nat) + 15, ht⟩)).set
  rw [View.set_slice_whole, Rect.mem_set_unit]
  intro b
  match b with
  | ⟨0, _⟩ =>
    show win0_2.index ⟨16 * (i 0 : Nat) + 15, ht⟩ 0 * 1 ≤ (i 0 : Nat) ∧ (i 0 : Nat) < win0_2.index ⟨16 * (i 0 : Nat) + 15, ht⟩ 0 * 1 + 1
    rw [hi.2.2.2.2.1]
    show (16 * (i 0 : Nat) + 15) / 16 * 1 ≤ (i 0 : Nat) ∧ (i 0 : Nat) < (16 * (i 0 : Nat) + 15) / 16 * 1 + 1
    omega
  | ⟨1, _⟩ =>
    show win0_2.index ⟨16 * (i 0 : Nat) + 15, ht⟩ 1 * 6 ≤ (i 1 : Nat) ∧ (i 1 : Nat) < win0_2.index ⟨16 * (i 0 : Nat) + 15, ht⟩ 1 * 6 + 6
    rw [hi.2.2.2.2.2.1]; omega
  | ⟨2, _⟩ =>
    show win0_2.index ⟨16 * (i 0 : Nat) + 15, ht⟩ 2 * 1024 ≤ (i 2 : Nat) ∧ (i 2 : Nat) < win0_2.index ⟨16 * (i 0 : Nat) + 15, ht⟩ 2 * 1024 + 1024
    rw [hi.2.2.2.2.2.2]; omega

/-- So the result array ends holding the closed form. -/
theorem final_arr (c : Dev nD) : ((dat0 V c).arrAt 2 cfg0.N : S2x6x1024.Idx → EReal) = segArr V c :=
  (dat0 V c).arrAt_eq_of_cover 2 (segArr V c) (flushed_eq V c) (cover c)

/-- Entry (p, k, a) of the result array is slab p's sum for class k, channel a. -/
theorem final_apply (c : Dev nD) (p : Fin 2) (k : Fin 6) (a : Fin 1024) :
    ((dat0 V c).arrAt 2 cfg0.N : S2x6x1024.Idx → EReal) (ix3 p k a) = Cert.Spec.segAt (lrow V c) (frow V c) p k a :=
  (congrFun (final_arr V c) (ix3 p k a)).trans (segArr_apply V c p k a)

end Cert.KernelIdeal.SegValue

end
-- ==== Proof.SegFinal.lean ====
import proofs.«421650_j64458869178422_3_alg».proof.Proof.Gen.KernelIdeal.Frame
import proofs.«421650_j64458869178422_3_alg».proof.Proof.Spec
import proofs.«421650_j64458869178422_3_alg».proof.Proof.SegOut
import Idealize.ShloMosaic.Lib.Pipeline.Value
import Idealize.ShloMosaic.Lib.ValueIdx
import Idealize.ShloMosaic.PureOps.Ideal.Laws

noncomputable section

namespace Cert.KernelIdeal.SegValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The labels row the first region finds, by row number. -/
abbrev labs (c : Dev nD) : Fin 65536 → BitVec 32 := fun n => (V c main_v13 : S1x65536.Idx → BitVec 32) (ValueIdx.ix2 0 n)
/-- The feature rows the first region finds. -/
abbrev feat (c : Dev nD) : Fin 65536 → Fin 1024 → EReal := fun n a => (V c main_arg1 : S65536x1024.Idx → EReal) (ValueIdx.ix2 n a)

theorem seg_final (c : Dev nD) (p : Fin 2) (k : Fin 6) (a : Fin 1024) :
    ((dat0 (F := Ideal) V c).arrAt 2 cfg0.N : S2x6x1024.Idx → EReal) (ValueIdx.ix3 p k a)
      = Cert.Spec.segAt (labs V c) (feat V c) p k a :=
  final_apply V c p k a

end Cert.KernelIdeal.SegValue

end
-- ==== Proof.RefScatIdx.lean ====
/-
  The two scatter-adds' dimension numbers read at an update index.

  Rows scatter (operand 7 × 1024, indices 65536 × 1, updates 65536 × 1024; update window axis 1,
  inserted axis 0, start component 0 on operand axis 0): update (n, a') lands at operand
  (row, a') where row is the signed value of index word (n, 0); it is dropped when that value
  is outside 0 … 6.  Count scatter (operand 7, updates 65536): update n lands at the signed
  value of index word (n, 0).
-/
import proofs.«421650_j64458869178422_3_alg».proof.Proof.Gen.ReferenceIdeal
import Idealize.ShloMosaic.Lib.ValueIdx

noncomputable section

namespace Cert.ReferenceIdeal.RefScatIdx

open Cert.ReferenceIdeal Cert.ReferenceIdeal.Gen Idealize.ShloMosaic Idealize.ShloMosaic.ValueIdx

/-- An update lands at operand index i exactly when, on every axis, start plus window coordinate
    is i's coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    rw [Option.some.injEq]
    constructor
    · intro e a
      have e1 := congrArg (fun f => (f a).val) e
      have h1 := h a
      simp only at e1
      omega
    · intro e
      funext a
      apply Fin.ext
      have e1 := e a
      show (d.start j idx a + d.window j a).toNat = (i a).val
      omega
  · rename_i h
    constructor
    · intro e; cases e
    · intro e
      exfalso
      apply h
      intro a
      have e1 := e a
      have h2 := (i a).isLt
      omega

/-- The rows scatter's dimension numbers. -/
abbrev D2 := scatter_S7x1024_S65536x1_S65536x1024_1_0_0_1
/-- The count scatter's dimension numbers. -/
abbrev D1 := scatter_S7_S65536x1_S65536_n_0_0_1

/-! ### The rows scatter -/

set_option maxHeartbeats 400000 in
/-- Operand axis 0 is inserted: no window coordinate. -/
theorem D2_window0 (j : S65536x1024.Idx) : D2.window j ⟨0, by decide⟩ = 0 := by
  unfold ScatterDims.window
  rw [dif_neg]
  show (⟨0, _⟩ : Fin 2) ∉ Shape.kept S7x1024 [0]
  decide

set_option maxHeartbeats 400000 in
/-- Operand axis 1 takes the update's axis 1. -/
theorem D2_window1 (j : S65536x1024.Idx) : D2.window j ⟨1, by decide⟩ = (j 1).val := by
  unfold ScatterDims.window
  have h : (⟨1, by decide⟩ : Fin S7x1024.rank) ∈ D2.sKept := by
    show (⟨1, _⟩ : Fin 2) ∈ Shape.kept S7x1024 [0]; decide
  rw [dif_pos h]
  rfl

set_option maxHeartbeats 400000 in
/-- Operand axis 1 is not named by the start-index map. -/
theorem D2_start1 {w : Nat} (j : S65536x1024.Idx) (idx : IVec S65536x1 w) : D2.start j idx ⟨1, by decide⟩ = 0 := by
  unfold ScatterDims.start
  rw [dif_neg]
  show (⟨1, _⟩ : Fin 2) ∉ [0]
  decide

set_option maxHeartbeats 400000 in
/-- Operand axis 0 starts at the signed value of index word (n, 0), n the update's row. -/
theorem D2_start0 {w : Nat} (j : S65536x1024.Idx) (idx : IVec S65536x1 w) :
    D2.start j idx ⟨0, by decide⟩ = (idx (ix2 (j 0) 0)).toInt := by
  unfold ScatterDims.start
  have h : (⟨0, by decide⟩ : Fin S7x1024.rank) ∈ D2.scatterDimsToOperandDims := by
    show (⟨0, _⟩ : Fin 2) ∈ [0]; decide
  rw [dif_pos h]
  congr 2
  funext b
  match b with
  | ⟨0, _⟩ => rfl
  | ⟨1, _⟩ => rfl

set_option maxHeartbeats 400000 in
/-- Update (n, a') lands at (k', a) exactly when index word (n, 0) is k' read signed and a' = a. -/
theorem D2_resultIdx {w : Nat} (idx : IVec S65536x1 w) (n : Fin 65536) (a' : Fin 1024) (k' : Fin 7) (a : Fin 1024) :
    D2.resultIdx? (ix2 n a') idx = some (ix2 k' a) ↔ (idx (ix2 n 0)).toInt = (k'.val : Int) ∧ a' = a := by
  rw [resultIdx?_eq_some_iff]
  constructor
  · intro h
    have h0 := h ⟨0, by decide⟩
    have h1 := h ⟨1, by decide⟩
    rw [D2_start0, D2_window0] at h0
    rw [D2_start1, D2_window1] at h1
    refine ⟨?_, ?_⟩
    · have : (idx (ix2 n 0)).toInt + ((0 : Nat) : Int) = (k'.val : Int) := h0
      omega
    · apply Fin.ext
      have : (0 : Int) + ((a'.val : Nat) : Int) = ((a.val : Nat) : Int) := h1
      omega
  · rintro ⟨h0, rfl⟩ b
    match b with
    | ⟨0, _⟩ =>
      rw [D2_start0, D2_window0]
      show (idx (ix2 n 0)).toInt + ((0 : Nat) : Int) = (k'.val : Int)
      omega
    | ⟨1, _⟩ =>
      rw [D2_start1, D2_window1]
      show (0 : Int) + ((a'.val : Nat) : Int) = ((a'.val : Nat) : Int)
      omega

/-! ### The count scatter -/

set_option maxHeartbeats 400000 in
theorem D1_window0 (j : S65536.Idx) : D1.window j ⟨0, by decide⟩ = 0 := by
  unfold ScatterDims.window
  rw [dif_neg]
  show (⟨0, _⟩ : Fin 1) ∉ Shape.kept S7 [0]
  decide

set_option maxHeartbeats 400000 in
theorem D1_start0 {w : Nat} (j : S65536.Idx) (idx : IVec S65536x1 w) :
    D1.start j idx ⟨0, by decide⟩ = (idx (ix2 (j 0) 0)).toInt := by
  unfold ScatterDims.start
  have h : (⟨0, by decide⟩ : Fin S7.rank) ∈ D1.scatterDimsToOperandDims := by
    show (⟨0, _⟩ : Fin 1) ∈ [0]; decide
  rw [dif_pos h]
  congr 2
  funext b
  match b with
  | ⟨0, _⟩ => rfl
  | ⟨1, _⟩ => rfl

set_option maxHeartbeats 400000 in
/-- Update n lands at k' exactly when index word (n, 0) is k' read signed. -/
theorem D1_resultIdx {w : Nat} (idx : IVec S65536x1 w) (n : Fin 65536) (k' : Fin 7) :
    D1.resultIdx? (ix1 n) idx = some (ix1 k') ↔ (idx (ix2 n 0)).toInt = (k'.val : Int) := by
  rw [resultIdx?_eq_some_iff]
  constructor
  · intro h
    have h0 := h ⟨0, by decide⟩
    rw [D1_start0, D1_window0] at h0
    have : (idx (ix2 n 0)).toInt + ((0 : Nat) : Int) = (k'.val : Int) := h0
    omega
  · intro h0 b
    match b with
    | ⟨0, _⟩ =>
      rw [D1_start0, D1_window0]
      show (idx (ix2 n 0)).toInt + ((0 : Nat) : Int) = (k'.val : Int)
      omega

end Cert.ReferenceIdeal.RefScatIdx

end
-- ==== Proof.RefScatSum.lean ====
/-
  The two scatter-adds at an entry, as sums over the 65536 update rows.

  At the extended reals a scatter-add's entry is the operand there plus the sum of the updates
  that land there.  For the rows scatter the updates landing at (k', a) are the (n, a) whose
  index word (n, 0) is k' read signed; for the count scatter those landing at k' are the n whose
  index word is k'.  Both filtered sums are rewritten as sums over n : Fin 65536 of an indicator.
-/
import proofs.«421650_j64458869178422_3_alg».proof.Proof.RefScatIdx
import Idealize.ShloMosaic.PureOps.Ideal
import Idealize.ShloMosaic.Lib.ValueIdx

noncomputable section

namespace Cert.ReferenceIdeal.RefScatSum

open Cert.ReferenceIdeal Cert.ReferenceIdeal.Gen Cert.ReferenceIdeal.RefScatIdx Idealize.ShloMosaic Idealize.ShloMosaic.ValueIdx

open scoped BigOperators

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

set_option maxHeartbeats 400000 in
/-- The rows scatter-add at (k', a): the operand there plus the sum, over the update rows n whose
    index word is k' read signed, of update (n, a). -/
theorem rows_sum (x : S7x1024.Idx → EReal) (idx : IVec S65536x1 32) (upd : S65536x1024.Idx → EReal)
    (k' : Fin 7) (a : Fin 1024) :
    Ideal.hostScatterAdd D2 x idx upd (ix2 k' a)
      = x (ix2 k' a) + ∑ n : Fin 65536, if (idx (ix2 n 0)).toInt = (k'.val : Int) then upd (ix2 n a) else 0 := by
  unfold Ideal.hostScatterAdd
  refine congrArg (fun t => x (ix2 k' a) + t) ?_
  rw [Finset.sum_filter, sum_idx2]
  refine Finset.sum_congr rfl (fun n _ => ?_)
  simp only [D2_resultIdx]
  by_cases h : (idx (ix2 n 0)).toInt = (k'.val : Int)
  · simp only [h, true_and, if_true]
    rw [Finset.sum_ite_eq' Finset.univ a (fun a' => upd (ix2 n a'))]
    simp only [Finset.mem_univ, if_true]
  · simp only [h, false_and, if_false]
    exact Finset.sum_const_zero

set_option maxHeartbeats 400000 in
/-- The count scatter-add at k': the operand there plus the sum, over the updates n whose index
    word is k' read signed, of update n. -/
theorem cnt_sum (x : S7.Idx → EReal) (idx : IVec S65536x1 32) (upd : S65536.Idx → EReal) (k' : Fin 7) :
    Ideal.hostScatterAdd D1 x idx upd (ix1 k')
      = x (ix1 k') + ∑ n : Fin 65536, if (idx (ix2 n 0)).toInt = (k'.val : Int) then upd (ix1 n) else 0 := by
  unfold Ideal.hostScatterAdd
  refine congrArg (fun t => x (ix1 k') + t) ?_
  rw [Finset.sum_filter, sum_idx1]
  refine Finset.sum_congr rfl (fun n _ => ?_)
  simp only [D1_resultIdx]

end Cert.ReferenceIdeal.RefScatSum

end
-- ==== Proof.RefScatWord.lean ====
/-
  The label words of the two scatter-adds.

  For a label word l: the class bit msk l is 1 unless l is the ignore label 255; the scatter row
  seg l is l itself when the bit is 1 and the spare row 6 when it is 0; mf l is the bit as a
  float (1 or 0).  For a class k < 6, seg l read signed is k exactly when l is the word k, and
  then the bit is 1.  Hence a scatter-add term "x · mf l where seg l = k" is oh k l · x.
-/
import proofs.«421650_j64458869178422_3_alg».proof.Proof.Spec
import Idealize.ShloMosaic.PureOps.Ideal
import Idealize.ShloMosaic.Lib.ValueIdx

noncomputable section

namespace Cert.ReferenceIdeal.RefScatWord

open Idealize.ShloMosaic Idealize.ShloMosaic.ValueIdx

/-- The class bit: 1 unless the label is the ignore label 255. -/
def msk (l : BitVec 32) : BitVec 1 := IntOp.cmpi .ne l 255#32
/-- The scatter row: the label when it is not 255, the spare row 6 otherwise. -/
def seg (l : BitVec 32) : BitVec 32 := Scalar.select (msk l) l 6#32
/-- The class bit as a float. -/
def mf (l : BitVec 32) : EReal := FloatOps.uitofp (F := Ideal) .f32 (msk l)

theorem msk_ignore : msk 255#32 = 0#1 := by decide

theorem msk_of_ne {l : BitVec 32} (h : l ≠ 255#32) : msk l = 1#1 := by
  unfold msk IntOp.cmpi
  have hb : (l != 255#32) = true := bne_iff_ne.2 h
  show BitVec.ofBool (l != 255#32) = 1#1
  rw [hb]
  rfl

theorem seg_ignore : seg 255#32 = 6#32 := by
  unfold seg; rw [msk_ignore, select_zero]

theorem seg_of_ne {l : BitVec 32} (h : l ≠ 255#32) : seg l = l := by
  unfold seg; rw [msk_of_ne h, select_one]

theorem class_toInt : ∀ k : Fin 6, (BitVec.ofNat 32 k.val).toInt = (k.val : Int) := by decide

theorem class_ne_ignore : ∀ k : Fin 6, BitVec.ofNat 32 k.val ≠ 255#32 := by decide

/-- The scatter row read signed is the class k < 6 exactly when the label is the word k. -/
theorem seg_toInt_iff (k : Fin 6) (l : BitVec 32) : (seg l).toInt = (k.val : Int) ↔ l = BitVec.ofNat 32 k.val := by
  by_cases h : l = 255#32
  · subst h
    rw [seg_ignore]
    constructor
    · intro e
      have h6 : (6#32 : BitVec 32).toInt = 6 := by decide
      rw [h6] at e
      have := k.isLt
      omega
    · intro e
      exact absurd e.symm (class_ne_ignore k)
  · rw [seg_of_ne h]
    constructor
    · intro e
      apply BitVec.eq_of_toInt_eq
      rw [e, class_toInt]
    · intro e
      rw [e, class_toInt]

/-- A class label's bit, as a float, is 1. -/
theorem mf_class (k : Fin 6) : mf (BitVec.ofNat 32 k.val) = 1 := by
  unfold mf
  rw [msk_of_ne (class_ne_ignore k)]
  show (((1#1 : BitVec 1).toNat : ℝ) : EReal) = 1
  simp

/-- A rows scatter-add term: the masked feature where the row is k, else nothing. -/
theorem term_rows (k : Fin 6) (l : BitVec 32) (x : EReal) :
    (if (seg l).toInt = (k.val : Int) then x * mf l else 0) = Cert.Spec.oh k l * x := by
  unfold Cert.Spec.oh
  by_cases h : l = BitVec.ofNat 32 k.val
  · rw [if_pos ((seg_toInt_iff k l).2 h), if_pos h, h, mf_class, mul_one, one_mul]
  · rw [if_neg (fun e => h ((seg_toInt_iff k l).1 e)), if_neg h, zero_mul]

/-- A count scatter-add term: the bit where the row is k, else nothing. -/
theorem term_cnt (k : Fin 6) (l : BitVec 32) :
    (if (seg l).toInt = (k.val : Int) then mf l else 0) = Cert.Spec.oh k l := by
  unfold Cert.Spec.oh
  by_cases h : l = BitVec.ofNat 32 k.val
  · rw [if_pos ((seg_toInt_iff k l).2 h), if_pos h, h, mf_class]
  · rw [if_neg (fun e => h ((seg_toInt_iff k l).1 e)), if_neg h]

end Cert.ReferenceIdeal.RefScatWord

end
-- ==== Proof.RefMean.lean ====
import proofs.«421650_j64458869178422_3_alg».proof.Proof.Gen.ReferenceIdeal.Read
import proofs.«421650_j64458869178422_3_alg».proof.Proof.Spec
import proofs.«421650_j64458869178422_3_alg».proof.Proof.RefScatSum
import proofs.«421650_j64458869178422_3_alg».proof.Proof.RefScatWord
import Idealize.ShloMosaic.Lib.Pipeline.Value
import Idealize.ShloMosaic.Lib.ValueIdx
import Idealize.ShloMosaic.PureOps.Ideal.Laws

noncomputable section

namespace Cert.ReferenceIdeal.RefMean

open Cert.ReferenceIdeal Cert.ReferenceIdeal.Gen Cert.ReferenceIdeal.Read Idealize.ShloMosaic Idealize.ShloMosaic.TcCoe Idealize.SL.Sem
open Cert.ReferenceIdeal.RefScatIdx Cert.ReferenceIdeal.RefScatSum Cert.ReferenceIdeal.RefScatWord Idealize.ShloMosaic.ValueIdx

/-! ### The label words at a row -/

/-- The class bit of row n: the label compared against the ignore label 255. -/
theorem v1_at (x4 : S65536.Idx → BitVec 32) (n : Fin 65536) :
    val_main_v1 (F := Ideal) x4 (ix1 n) = msk (x4 (ix1 n)) := by
  rw [val_main_v1_apply, val_main_v0_apply, val_main_c_apply]
  rfl

/-- The scatter row of row n: the label where the class bit is set, the spare row 6 elsewhere. -/
theorem v6_at (x4 : S65536.Idx → BitVec 32) (n : Fin 65536) :
    val_main_v6 (F := Ideal) x4 (ix1 n) = seg (x4 (ix1 n)) := by
  rw [val_main_v6_apply, v1_at, val_main_call0_v1_apply, val_main_call0_v0_apply, val_main_c_0_apply]
  rfl

/-- The rows scatter's index word (n, 0). -/
theorem v8_at (x4 : S65536.Idx → BitVec 32) (n : Fin 65536) :
    val_main_v8 (F := Ideal) x4 (ix2 n (0 : Fin 1)) = seg (x4 (ix1 n)) := by
  rw [val_main_v8_apply]
  have hi : idx_main_v8 (ix2 n (0 : Fin 1)) = ix1 n := by
    funext d; match d with | ⟨0, _⟩ => rfl
  rw [hi, v6_at]

/-- The count scatter's index word (n, 0). -/
theorem v13_at (x4 : S65536.Idx → BitVec 32) (n : Fin 65536) :
    val_main_v13 (F := Ideal) x4 (ix2 n (0 : Fin 1)) = seg (x4 (ix1 n)) := by
  rw [val_main_v13_apply]
  have hi : idx_main_v13 (ix2 n (0 : Fin 1)) = ix1 n := by
    funext d; match d with | ⟨0, _⟩ => rfl
  rw [hi, v6_at]

/-- The rows scatter's update (n, a): the feature times the class bit of row n. -/
theorem v5_at (x1 : S65536x1024.Idx → EReal) (x4 : S65536.Idx → BitVec 32) (n : Fin 65536) (a : Fin 1024) :
    val_main_v5 (F := Ideal) x1 x4 (ix2 n a) = x1 (ix2 n a) * mf (x4 (ix1 n)) := by
  rw [val_main_v5_apply, val_main_v4_apply, val_main_v3_apply, val_main_v2_apply]
  have hi : idx_main_v2 (idx_main_v4 (ix2 n a)) = ix1 n := by
    funext d; match d with | ⟨0, _⟩ => rfl
  rw [hi, v1_at]
  rfl

/-- The count scatter's update n: the class bit of row n as a float. -/
theorem v11_at (x4 : S65536.Idx → BitVec 32) (n : Fin 65536) :
    val_main_v11 (F := Ideal) x4 (ix1 n) = mf (x4 (ix1 n)) := by
  rw [val_main_v11_apply, v1_at]
  rfl

/-! ### The two scatter-adds at a class -/

/-- Row k < 6 of the rows scatter-add: the per-class sum of channel a. -/
theorem v10_at (x1 : S65536x1024.Idx → EReal) (x4 : S65536.Idx → BitVec 32) (k : Fin 6) (a : Fin 1024) :
    val_main_v10 (F := Ideal) x1 x4 (ix2 k a)
      = ∑ n : Fin 65536, Cert.Spec.oh k (x4 (ix1 n)) * x1 (ix2 n a) := by
  rw [val_main_v10_apply]
  have hi : idx_main_v10 (ix2 k a) = ix2 (⟨k.val, by have := k.isLt; omega⟩ : Fin 7) a := by
    funext d; match d with | ⟨0, _⟩ => rfl | ⟨1, _⟩ => rfl
  rw [hi]
  unfold val_main_v9 Host.scatterAdd
  rw [Ideal.hostScatterAdd_def, rows_sum, val_main_v7_apply, val_main_cst_apply, Ideal.ofBits_def,
    Ideal.ofBits_zero_f32, zero_add]
  refine Finset.sum_congr rfl (fun n _ => ?_)
  rw [v8_at, v5_at]
  exact term_rows k _ _

/-- Entry k < 6 of the count scatter-add: the per-class count. -/
theorem v15_at (x4 : S65536.Idx → BitVec 32) (k : Fin 6) :
    val_main_v15 (F := Ideal) x4 (ix1 k) = ∑ n : Fin 65536, Cert.Spec.oh k (x4 (ix1 n)) := by
  rw [val_main_v15_apply]
  have hi : idx_main_v15 (ix1 k) = ix1 (⟨k.val, by have := k.isLt; omega⟩ : Fin 7) := by
    funext d; match d with | ⟨0, _⟩ => rfl
  rw [hi]
  unfold val_main_v14 Host.scatterAdd
  rw [Ideal.hostScatterAdd_def, cnt_sum, val_main_v12_apply, val_main_cst_1_apply, Ideal.ofBits_def,
    Ideal.ofBits_zero_f32, zero_add]
  refine Finset.sum_congr rfl (fun n _ => ?_)
  rw [v13_at, v11_at]
  exact term_cnt k _

/-- The divisor at (k, a): the per-class count floored at 1. -/
theorem v19_at (x4 : S65536.Idx → BitVec 32) (k : Fin 6) (a : Fin 1024) :
    val_main_v19 (F := Ideal) x4 (ix2 k a)
      = max (∑ n : Fin 65536, Cert.Spec.oh k (x4 (ix1 n))) (Ideal.ofBits .f32 0x3F800000#32) := by
  rw [val_main_v19_apply, val_main_v18_apply]
  have hi : idx_main_v18 (idx_main_v19 (ix2 k a)) = ix1 k := by
    funext d; match d with | ⟨0, _⟩ => rfl
  rw [hi, val_main_v17_apply, v15_at, val_main_v16_apply, val_main_cst_2_apply]
  rfl

/-- The reference's class means at an entry: the scatter-added rows of each class over the scatter-added count floored at 1. -/
theorem ref_mean (x1 : S65536x1024.Idx → EReal) (x4 : S65536.Idx → BitVec 32) (k : Fin 6) (a : Fin 1024) :
    val_main_v20 (F := Ideal) x1 x4 (ValueIdx.ix2 k a)
      = Cert.Spec.meanAt (fun n => x4 (ValueIdx.ix1 n)) (fun n a => x1 (ValueIdx.ix2 n a)) k a := by
  rw [val_main_v20_apply, v10_at, v19_at]
  rfl

end Cert.ReferenceIdeal.RefMean

end
-- ==== Proof.SumSplit.lean ====
/-
  The 65536 feature rows as 32 row blocks of 2048: a sum over all rows is the sum over the blocks of the sums within
  each block, and the two slabs (blocks 0 … 15 and 16 … 31) add up to the whole.  Only commutativity and associativity
  of addition are used, so this holds on the extended reals with no finiteness assumption.
-/
import proofs.«421650_j64458869178422_3_alg».proof.Proof.Spec
import Mathlib.Algebra.BigOperators.Fin
import Mathlib.Logic.Equiv.Fin.Basic

noncomputable section

namespace Cert.Spec

open Idealize.ShloMosaic

/-- Summing block by block is summing over all rows: row (t, r) is row 2048·t + r. -/
theorem sum_rows {M : Type*} [AddCommMonoid M] (f : Fin 65536 → M) :
    ∑ t ∈ Finset.range 32, ∑ r : Fin 2048, f (rowAt t r) = ∑ n : Fin 65536, f n := by
  rw [Finset.sum_range (fun t => ∑ r : Fin 2048, f (rowAt t r)), ← Fintype.sum_prod_type']
  refine Fintype.sum_equiv (finProdFinEquiv : Fin 32 × Fin 2048 ≃ Fin 65536) _ _ ?_
  rintro ⟨t, r⟩
  refine congrArg f (Fin.ext ?_)
  rw [rowAt_val t.val t.isLt r]
  show 2048 * t.val + r.val = r.val + 2048 * t.val
  omega

/-- The two slabs of partial sums add up to the per-class sum over all rows. -/
theorem seg_add (L : Fin 65536 → BitVec 32) (X : Fin 65536 → Fin 1024 → EReal) (k : Fin 6) (a : Fin 1024) :
    segAt L X 0 k a + segAt L X 1 k a = sumAt L X k a := by
  unfold segAt sumAt
  rw [← sum_rows (fun n => oh k (L n) * X n a)]
  rw [show (32 : ℕ) = 16 + 16 from rfl, Finset.sum_range_add]
  simp only [blkSum, Fin.val_zero, Fin.val_one, Nat.mul_zero, Nat.zero_add, Nat.mul_one]

end Cert.Spec

end
-- ==== Proof.BridgeMean.lean ====
/-
  The class means agree.  At class k and channel a the kernel program ends with (slab 0 + slab 1) / max(count, 1), each
  slab the sum over sixteen row blocks of the class-k rows' channel a; the two slabs add up to the sum over all 65536
  rows, which is what the reference's scatter-add collects, and the counts are the same sum of indicators.
-/
import proofs.«421650_j64458869178422_3_alg».proof.Proof.KBound
import proofs.«421650_j64458869178422_3_alg».proof.Proof.SegFinal
import proofs.«421650_j64458869178422_3_alg».proof.Proof.RefMean
import proofs.«421650_j64458869178422_3_alg».proof.Proof.SumSplit
import proofs.«421650_j64458869178422_3_alg».proof.Proof.KHostIdx

set_option maxRecDepth 16384

noncomputable section

namespace Cert.Proof.BridgeMean

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The labels the first region finds are the launch memory's, row by row. -/
theorem labs_eq (c : Dev nD) : Cert.KernelIdeal.SegValue.labs (V1 m ρ) c
    = fun n => (m ((c : Thread nD τ).loc main_arg4) : S65536.Idx → BitVec 32) (ValueIdx.ix1 n) := funext fun n => by
  show (V1 m ρ c main_v13 : S1x65536.Idx → BitVec 32) (ValueIdx.ix2 0 n) = _
  rw [Cert.KernelIdeal.KBound.V1_labels]
  exact Cert.KernelIdeal.KHostIdx.relay_labels _ _ n

/-- The feature rows the first region finds are the launch memory's. -/
theorem feat_eq (c : Dev nD) : Cert.KernelIdeal.SegValue.feat (V1 m ρ) c
    = fun n a => (m ((c : Thread nD τ).loc main_arg1) : S65536x1024.Idx → EReal) (ValueIdx.ix2 n a) :=
  funext fun n => funext fun a => by
    show (V1 m ρ c main_arg1 : S65536x1024.Idx → EReal) (ValueIdx.ix2 n a) = _
    rw [Cert.KernelIdeal.KBound.V1_feat]

/-- The class means the kernel program ends with are the reference's class-mean stage of the same arguments. -/
theorem mean_eq (c : Dev nD) :
    W5 m ρ c (Proc.devRef .tc main_v24)
      = Cert.ReferenceIdeal.Read.val_main_v20 (F := Ideal) (m ((c : Thread nD τ).loc main_arg1)) (m ((c : Thread nD τ).loc main_arg4)) := by
  rw [Cert.KernelIdeal.KBound.W5_means]
  funext i
  obtain ⟨k, a, rfl⟩ : ∃ (k : Fin 6) (a : Fin 1024), i = ValueIdx.ix2 k a := ⟨i 0, i 1, ValueIdx.eq_ix2 i⟩
  rw [Cert.KernelIdeal.KHostIdx.meanOf_apply, Cert.KernelIdeal.KHostIdx.classCount_apply,
    Cert.KernelIdeal.SegValue.seg_final, Cert.KernelIdeal.SegValue.seg_final, Cert.ReferenceIdeal.RefMean.ref_mean,
    labs_eq, feat_eq, Cert.Spec.seg_add]
  rfl

end Cert.Proof.BridgeMean

end
-- ==== Proof.lean ====
/-
  The certificate of the prototype-contrastive-loss kernel against its jnp reference, over the extended reals.

  The kernel program has two regions among stretches of host operations.  The first forms, block by block, the sums of the
  feature rows of each class (a one-hot matrix built from the labels, times the features), in two slabs the host adds and
  divides by the class counts floored at 1: the class means.  The second divides each pixel's feature column by its norm
  floored at eps and contracts it with the unit prototypes: the similarity map, from which the host computes the loss.
  The reference forms the class sums and counts by two scatter-adds and the similarity map by one matrix product, and
  then applies the very same host operations.

  * frame_Kernel, frame_KernelIdeal: the generated frames.  frame_ReferenceIdeal: the generated run, its results dropped.
  * preserves: the idealization rewrote nothing.
  * algebraic: the kernel program's run with its two results named (KRun), the results read back through the host
    stretches to the two regions' result arrays (KGlue, KBound), those arrays entry by entry (SegFinal, ConFinal), the
    reference's two stages entry by entry (RefMean, RefContrast), and the two bridges: the loss is one function of the
    class scores and the similarity map on both sides, and the two slabs of partial sums add up to the sum over all
    rows.  Only commutativity and associativity of + and · on the extended reals are used, with 0·x = 0 and 1·x = x,
    so the precondition (finite inputs) is never opened.
-/
import proofs.«421650_j64458869178422_3_alg».proof.Defs
import proofs.«421650_j64458869178422_3_alg».proof.Proof.Gen.Kernel
import proofs.«421650_j64458869178422_3_alg».proof.Proof.Gen.Kernel.Skeleton
import proofs.«421650_j64458869178422_3_alg».proof.Proof.Gen.Kernel.Launch
import proofs.«421650_j64458869178422_3_alg».proof.Proof.Gen.Kernel.Points
import proofs.«421650_j64458869178422_3_alg».proof.Proof.Gen.Kernel.Frame
import proofs.«421650_j64458869178422_3_alg».proof.Proof.Gen.KernelIdeal
import proofs.«421650_j64458869178422_3_alg».proof.Proof.Gen.KernelIdeal.Skeleton
import proofs.«421650_j64458869178422_3_alg».proof.Proof.Gen.KernelIdeal.Launch
import proofs.«421650_j64458869178422_3_alg».proof.Proof.Gen.KernelIdeal.Points
import proofs.«421650_j64458869178422_3_alg».proof.Proof.Gen.KernelIdeal.Frame
import proofs.«421650_j64458869178422_3_alg».proof.Proof.Gen.ReferenceIdeal
import proofs.«421650_j64458869178422_3_alg».proof.Proof.Gen.Pre_finite_inputs
import proofs.«421650_j64458869178422_3_alg».proof.Proof.Gen.ReferenceIdeal.Run
import proofs.«421650_j64458869178422_3_alg».proof.Proof.Gen.ReferenceIdeal.Read
import proofs.«421650_j64458869178422_3_alg».proof.Proof.KRun
import proofs.«421650_j64458869178422_3_alg».proof.Proof.BridgeLoss
import proofs.«421650_j64458869178422_3_alg».proof.Proof.BridgeMean
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the same loss and the same class means, from memories that agree on the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v72),
    fun c => Cert.KernelIdeal.Gen.W5 m ρ c (Proc.devRef .tc Cert.KernelIdeal.main_v24),
    Cert.KernelIdeal.KRun.run_results m ρ, ?_⟩
  refine (θ_run Cert.ReferenceIdeal.defs _ _).mono (fun _ h c => ?_) (Cert.ReferenceIdeal.Value.run (F := Ideal) m' ρ')
  obtain ⟨h79, h20, hargs⟩ := h c
  obtain ⟨e0, e1, e2, e3, e4⟩ := hagree c
  refine ⟨h79.trans ?_, h20.trans ?_, hargs⟩
  · rw [Cert.ReferenceIdeal.Read.val_main_v79_eq, e0, e2, e3]
    exact (Cert.Proof.BridgeLoss.loss_eq m ρ c).symm
  · rw [e1, e4]
    exact (Cert.ReferenceIdeal.Read.val_main_v20_eq _ _).trans (Cert.Proof.BridgeMean.mean_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
